-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S32x704512 : Shape := ⟨2, ![32, 704512]⟩
abbrev S1x704512 : Shape := ⟨2, ![1, 704512]⟩
abbrev S11008x32 : Shape := ⟨2, ![11008, 32]⟩
abbrev S32x4096 : Shape := ⟨2, ![32, 4096]⟩
abbrev S11008 : Shape := ⟨1, ![11008]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S1x704512 : S_.BroadcastsInDim S1x704512 (![] : Fin 0 → Fin S1x704512.rank)
  reducesTo_S1x704512_S_d0_1 : S1x704512.ReducesTo [0, 1] S_
  bcast_S_S11008x32 : S_.BroadcastsInDim S11008x32 (![] : Fin 0 → Fin S11008x32.rank)
  reducesTo_S11008x32_S_d0_1 : S11008x32.ReducesTo [0, 1] S_
  bcast_S_S32x4096 : S_.BroadcastsInDim S32x4096 (![] : Fin 0 → Fin S32x4096.rank)
  reducesTo_S32x4096_S_d0_1 : S32x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg5 : FVec F S32x4096 .f32) (main_arg6 : FVec F S11008 .f32) (main_v13 : IVec S_ 1) (main_v16 : IVec S11008x32 1) : IVec S_ 1 :=
  let main_c_5 : IVec S_ 1 := constantI S_ 1 1#1
  let main_v17 : IVec S_ 1 := (fun x v => Host.reduce IntOp.andi x v reducesTo_S11008x32_S_d0_1 h_S_) main_v16 main_c_5
  let main_v18 : IVec S_ 1 := andi main_v13 main_v17
  let main_v19 : FVec F S32x4096 .f32 := Host.absf main_arg5
  let main_cst_6 : FVec F S_ .f32 := constant S_ .f32 0x7F800000#32
  let main_v20 : FVec F S32x4096 .f32 := broadcastInDim S32x4096 ![] bcast_S_S32x4096 main_cst_6
  let main_v21 : IVec S32x4096 1 := cmpf .olt main_v19 main_v20
  let main_c_7 : IVec S_ 1 := constantI S_ 1 1#1
  let main_v22 : IVec S_ 1 := (fun x v => Host.reduce IntOp.andi x v reducesTo_S32x4096_S_d0_1 h_S_) main_v21 main_c_7
  let main_v23 : IVec S_ 1 := andi main_v18 main_v22
  let main_v24 : FVec F S11008 .f32 := Host.absf main_arg6
  let main_cst_8 : FVec F S_ .f32 := constant S_ .f32 0x7F800000#32
  let main_v25 : FVec F S11008 .f32 := broadcastInDim S11008 ![] bcast_S_S11008 main_cst_8
  let main_v26 : IVec S11008 1 := cmpf .olt main_v24 main_v25
  let main_c_9 : IVec S_ 1 := constantI S_ 1 1#1
  let main_v27 : IVec S_ 1 := (fun x v => Host.reduce IntOp.andi x v reducesTo_S11008_S_d0 h_S_) main_v26 main_c_9
  let main_v28 : IVec S_ 1 := andi main_v23 main_v27
  main_v28

def fn {F : FTy → Type} [FloatOps F] (main_arg0 : FVec F S512x4096 .f32) (main_arg1 : IVec S32x704512 32) (main_arg2 : FVec F S1x704512 .f32) (main_arg3 : FVec F S1x704512 .f32) (main_arg4 : FVec F S11008x32 .f32) (main_arg5 : FVec F S32x4096 .f32) (main_arg6 : FVec F S11008 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S1x704512 .f32 := Host.absf main_arg2
  let main_cst_0 : FVec F S_ .f32 := constant S_ .f32 0x7F800000#32
  let main_v5 : FVec F S1x704512 .f32 := broadcastInDim S1x704512 ![] bcast_S_S1x704512 main_cst_0
  let main_v6 : IVec S1x704512 1 := cmpf .olt main_v4 main_v5
  let main_c_1 : IVec S_ 1 := constantI S_ 1 1#1
  let main_v7 : IVec S_ 1 := (fun x v => Host.reduce IntOp.andi x v reducesTo_S1x704512_S_d0_1 h_S_) main_v6 main_c_1
  let main_v8 : IVec S_ 1 := andi main_v3 main_v7
  let main_v9 : FVec F S1x704512 .f32 := Host.absf main_arg3
  let main_cst_2 : FVec F S_ .f32 := constant S_ .f32 0x7F800000#32
  let main_v10 : FVec F S1x704512 .f32 := broadcastInDim S1x704512 ![] bcast_S_S1x704512 main_cst_2
  let main_v11 : IVec S1x704512 1 := cmpf .olt main_v9 main_v10
  let main_c_3 : IVec S_ 1 := constantI S_ 1 1#1
  let main_v12 : IVec S_ 1 := (fun x v => Host.reduce IntOp.andi x v reducesTo_S1x704512_S_d0_1 h_S_) main_v11 main_c_3
  let main_v13 : IVec S_ 1 := andi main_v8 main_v12
  let main_v14 : FVec F S11008x32 .f32 := Host.absf main_arg4
  let main_cst_4 : FVec F S_ .f32 := constant S_ .f32 0x7F800000#32
  let main_v15 : FVec F S11008x32 .f32 := broadcastInDim S11008x32 ![] bcast_S_S11008x32 main_cst_4
  let main_v16 : IVec S11008x32 1 := cmpf .olt main_v14 main_v15
  fn_part1 (F := F) main_arg5 main_arg6 main_v13 main_v16
-- ==== Kernel.lean ====
abbrev S512x4096 : Shape := ⟨2, ![512, 4096]⟩
abbrev S32x704512 : Shape := ⟨2, ![32, 704512]⟩
abbrev S1x704512 : Shape := ⟨2, ![1, 704512]⟩
abbrev S11008x32 : Shape := ⟨2, ![11008, 32]⟩
abbrev S32x4096 : Shape := ⟨2, ![32, 4096]⟩
abbrev S11008 : Shape := ⟨1, ![11008]⟩
abbrev S32x172x4096 : Shape := ⟨3, ![32, 172, 4096]⟩
abbrev S1x172x4096 : Shape := ⟨3, ![1, 172, 4096]⟩
abbrev S172x4096 : Shape := ⟨2, ![172, 4096]⟩
abbrev S204x4096 : Shape := ⟨2, ![204, 4096]⟩
abbrev S4096x204 : Shape := ⟨2, ![4096, 204]⟩
abbrev S512x204 : Shape := ⟨2, ![512, 204]⟩
abbrev S512x32 : Shape := ⟨2, ![512, 32]⟩
abbrev S512x172 : Shape := ⟨2, ![512, 172]⟩
abbrev S_ : Shape := ⟨0, ![]⟩
abbrev S512x1 : Shape := ⟨2, ![512, 1]⟩
abbrev S512x33 : Shape := ⟨2, ![512, 33]⟩
abbrev S11008x1 : Shape := ⟨2, ![11008, 1]⟩
abbrev S11008x33 : Shape := ⟨2, ![11008, 33]⟩
abbrev S512x11008 : Shape := ⟨2, ![512, 11008]⟩
abbrev S32x172x256 : Shape := ⟨3, ![32, 172, 256]⟩
abbrev S1x172x256 : Shape := ⟨3, ![1, 172, 256]⟩
abbrev S512x256 : Shape := ⟨2, ![512, 256]⟩
abbrev S64x172x256 : Shape := ⟨3, ![64, 172, 256]⟩
abbrev S11008x256 : Shape := ⟨2, ![11008, 256]⟩
abbrev S256x11008 : Shape := ⟨2, ![256, 11008]⟩
abbrev S512x1x172 : Shape := ⟨3, ![512, 1, 172]⟩
abbrev S512x64x172 : Shape := ⟨3, ![512, 64, 172]⟩

abbrev nBuf : Space → Nat
  | .hbm => 22
  | .vmem => 10
  | .smem => 0
  | _ => 0

abbrev bufTy : (tb : Table) → Fin (tcTables nBuf tb) → BufTy
  | .hbm, ⟨0, _⟩ => ⟨S512x4096, .f32⟩
  | .hbm, ⟨1, _⟩ => ⟨S32x704512, .i32⟩
  | .hbm, ⟨2, _⟩ => ⟨S1x704512, .f32⟩
  | .hbm, ⟨3, _⟩ => ⟨S1x704512, .f32⟩
  | .hbm, ⟨4, _⟩ => ⟨S11008x32, .f32⟩
  | .hbm, ⟨5, _⟩ => ⟨S32x4096, .f32⟩
  | .hbm, ⟨6, _⟩ => ⟨S11008, .f32⟩
  | .hbm, ⟨7, _⟩ => ⟨S32x172x4096, .i32⟩
  | .hbm, ⟨8, _⟩ => ⟨S1x172x4096, .f32⟩
  | .hbm, ⟨9, _⟩ => ⟨S1x704512, .f32⟩
  | .hbm, ⟨10, _⟩ => ⟨S172x4096, .f32⟩
  | .hbm, ⟨11, _⟩ => ⟨S204x4096, .f32⟩
  | .hbm, ⟨12, _⟩ => ⟨S4096x204, .f32⟩
  | .hbm, ⟨13, _⟩ => ⟨S512x204, .f32⟩
  | .hbm, ⟨14, _⟩ => ⟨S512x32, .f32⟩
  | .hbm, ⟨15, _⟩ => ⟨S512x172, .f32⟩
  | .hbm, ⟨16, _⟩ => ⟨S_, .f32⟩
  | .hbm, ⟨17, _⟩ => ⟨S512x1, .f32⟩
  | .hbm, ⟨18, _⟩ => ⟨S512x33, .f32⟩
  | .hbm, ⟨19, _⟩ => ⟨S11008x1, .f32⟩
  | .hbm, ⟨20, _⟩ => ⟨S11008x33, .f32⟩
  | .hbm, ⟨21, _⟩ => ⟨S512x11008, .f32⟩
  | .local _ .vmem, ⟨0, _⟩ => ⟨S32x172x256, .i32⟩
  | .local _ .vmem, ⟨1, _⟩ => ⟨S32x172x256, .i32⟩
  | .local _ .vmem, ⟨2, _⟩ => ⟨S1x172x256, .f32⟩
  | .local _ .vmem, ⟨3, _⟩ => ⟨S1x172x256, .f32⟩
  | .local _ .vmem, ⟨4, _⟩ => ⟨S512x256, .f32⟩
  | .local _ .vmem, ⟨5, _⟩ => ⟨S512x256, .f32⟩
  | .local _ .vmem, ⟨6, _⟩ => ⟨S512x33, .f32⟩
  | .local _ .vmem, ⟨7, _⟩ => ⟨S11008x33, .f32⟩
  | .local _ .vmem, ⟨8, _⟩ => ⟨S512x172, .f32⟩
  | .local _ .vmem, ⟨9, _⟩ => ⟨S512x11008, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x172x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x172x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x33 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11008x33 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x172 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x11008 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S32x704512_S32x172x4096 : S32x704512.ShapeCasts S32x172x4096
  shapeCasts_S1x704512_S1x172x4096 : S1x704512.ShapeCasts S1x172x4096
  shapeCasts_S1x704512_S172x4096 : S1x704512.ShapeCasts S172x4096
  concatenates_S32x4096_S172x4096_S204x4096_d0 : Shape.Concatenates [S32x4096, S172x4096] S204x4096 0
  transposes_S204x4096_S4096x204_1_0 : S204x4096.Transposes [1, 0] S4096x204
  slices_S512x204_S512x32_0_0 : S512x204.Slices ![0, 0] S512x32
  slices_S512x204_S512x172_0_32 : S512x204.Slices ![0, 32] S512x172
  bcast_S_S512x1 : S_.BroadcastsInDim S512x1 (![] : Fin 0 → Fin S512x1.rank)
  concatenates_S512x32_S512x1_S512x33_d1 : Shape.Concatenates [S512x32, S512x1] S512x33 1
  shapeCasts_S11008_S11008x1 : S11008.ShapeCasts S11008x1
  concatenates_S11008x32_S11008x1_S11008x33_d1 : Shape.Concatenates [S11008x32, S11008x1] S11008x33 1
  inb_S512x11008_S512x11008_0_0 : ∀ a, (![0, 0] : Fin 2 → Nat) a + S512x11008.size a ≤ S512x11008.size a
  h_S512x11008 : 0 < S512x11008.numel
  inb_S32x172x256_S32x172x256_0_0_0 : ∀ a, (![0, 0, 0] : Fin 3 → Nat) a + S32x172x256.size a ≤ S32x172x256.size a
  h_S32x172x256 : 0 < S32x172x256.numel
  shapeCasts_S32x172x256_S32x172x256 : S32x172x256.ShapeCasts S32x172x256
  inb_S1x172x256_S1x172x256_0_0_0 : ∀ a, (![0, 0, 0] : Fin 3 → Nat) a + S1x172x256.size a ≤ S1x172x256.size a
  h_S1x172x256 : 0 < S1x172x256.numel
  shapeCasts_S1x172x256_S1x172x256 : S1x172x256.ShapeCasts S1x172x256
  broadcasts_S1x172x256_S32x172x256 : S1x172x256.Broadcasts S32x172x256
  bitsLt_bf16_f32 : FTy.bits .bf16 < FTy.bits .f32
  concatenates_S32x172x256_S32x172x256_S64x172x256_d0 : Shape.Concatenates [S32x172x256, S32x172x256] S64x172x256 0
  shapeCasts_S64x172x256_S11008x256 : S64x172x256.ShapeCasts S11008x256
  inb_S512x256_S512x256_0_0 : ∀ a, (![0, 0] : Fin 2 → Nat) a + S512x256.size a ≤ S512x256.size a
  h_S512x256 : 0 < S512x256.numel
  shapeCasts_S512x11008_S512x11008 : S512x11008.ShapeCasts S512x11008
  transposes_S11008x256_p1_0_S256x11008 : S11008x256.Transposes [1, 0] S256x11008
  inb_S512x33_S512x33_0_0 : ∀ a, (![0, 0] : Fin 2 → Nat) a + S512x33.size a ≤ S512x33.size a
  h_S512x33 : 0 < S512x33.numel
  shapeCasts_S512x33_S512x33 : S512x33.ShapeCasts S512x33
  inb_S11008x33_S11008x33_0_0 : ∀ a, (![0, 0] : Fin 2 → Nat) a + S11008x33.size a ≤ S11008x33.size a
  h_S11008x33 : 0 < S11008x33.numel
  shapeCasts_S11008x33_S11008x33 : S11008x33.ShapeCasts S11008x33
  inb_S512x172_S512x172_0_0 : ∀ a, (![0, 0] : Fin 2 → Nat) a + S512x172.size a ≤ S512x172.size a
  h_S512x172 : 0 < S512x172.numel
  shapeCasts_S512x172_S512x172 : S512x172.ShapeCasts S512x172
  shapeCasts_S512x172_S512x1x172 : S512x172.ShapeCasts S512x1x172
  shapeCasts_S512x1x172_S512x1x172 : S512x1x172.ShapeCasts S512x1x172
  broadcasts_S512x1x172_S512x64x172 : S512x1x172.Broadcasts S512x64x172
  shapeCasts_S512x64x172_S512x11008 : S512x64x172.ShapeCasts S512x11008
  dot_S512x4096_S4096x204_S512x204_1_0_0_1_n_n_wf : DotDims.WF S512x4096 S4096x204 S512x204 [1] [0] [0] [1] [] []
  dot_S512x256_S256x11008_S512x11008_1_0_0_1_n_n_wf : DotDims.WF S512x256 S256x11008 S512x11008 [1] [0] [0] [1] [] []
  dot_S512x33_S11008x33_S512x11008_1_1_0_0_n_n_wf : DotDims.WF S512x33 S11008x33 S512x11008 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x172x256.size a ≤ S32x172x4096.size a
  hwx0_0 : ∀ i : grid0.Coords, EltTy.bits .i32 = 32 ∨ (Rect.block (s := S32x172x4096) S32x172x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x172x256.size a ≤ S1x172x4096.size a
  hwx0_1 : ∀ i : grid0.Coords, EltTy.bits .f32 = 32 ∨ (Rect.block (s := S1x172x4096) S1x172x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x4096.size a
  hwx0_2 : ∀ i : grid0.Coords, EltTy.bits .f32 = 32 ∨ (Rect.block (s := S512x4096) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x33.size a ≤ S512x33.size a
  hwx0_3 : ∀ i : grid0.Coords, EltTy.bits .f32 = 32 ∨ (Rect.block (s := S512x33) S512x33.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11008x33.size a ≤ S11008x33.size a
  hwx0_4 : ∀ i : grid0.Coords, EltTy.bits .f32 = 32 ∨ (Rect.block (s := S11008x33) S11008x33.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x172.size a ≤ S512x172.size a
  hwx0_5 : ∀ i : grid0.Coords, EltTy.bits .f32 = 32 ∨ (Rect.block (s := S512x172) S512x172.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x11008.size a ≤ S512x11008.size a
  hwx0_6 : ∀ i : grid0.Coords, EltTy.bits .f32 = 32 ∨ (Rect.block (s := S512x11008) S512x11008.size (cc0_transform_6 i) (hinb0_6 i)).WholeWords (EltTy.packing .f32)

variable [Facts₀]

def dot_S512x4096_S4096x204_S512x204_1_0_0_1_n_n : DotDims S512x4096 S4096x204 S512x204 where
  lhsContracting := [1]
  rhsContracting := [0]
  lhsNonContracting := [0]
  rhsNonContracting := [1]
  lhsBatch := []
  rhsBatch := []
  wf := dot_S512x4096_S4096x204_S512x204_1_0_0_1_n_n_wf
def dot_S512x256_S256x11008_S512x11008_1_0_0_1_n_n : DotDims S512x256 S256x11008 S512x11008 where
  lhsContracting := [1]
  rhsContracting := [0]
  lhsNonContracting := [0]
  rhsNonContracting := [1]
  lhsBatch := []
  rhsBatch := []
  wf := dot_S512x256_S256x11008_S512x11008_1_0_0_1_n_n_wf
def dot_S512x33_S11008x33_S512x11008_1_1_0_0_n_n : DotDims S512x33 S11008x33 S512x11008 where
  lhsContracting := [1]
  rhsContracting := [1]
  lhsNonContracting := [0]
  rhsNonContracting := [0]
  lhsBatch := []
  rhsBatch := []
  wf := dot_S512x33_S11008x33_S512x11008_1_1_0_0_n_n_wf

abbrev win0_0 : Pipeline.Window sig grid0 :=
  Pipeline.Window.ofSpec (Memref.whole main_v0) S32x172x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x172x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x33.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S11008x33.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x172.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S512x11008.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x4096 : Shape := ⟨2, ![512, 4096]⟩
abbrev S32x704512 : Shape := ⟨2, ![32, 704512]⟩
abbrev S1x704512 : Shape := ⟨2, ![1, 704512]⟩
abbrev S11008x32 : Shape := ⟨2, ![11008, 32]⟩
abbrev S32x4096 : Shape := ⟨2, ![32, 4096]⟩
abbrev S11008 : Shape := ⟨1, ![11008]⟩
abbrev S_ : Shape := ⟨0, ![]⟩
abbrev S64x704512 : Shape := ⟨2, ![64, 704512]⟩
abbrev S11008x4096 : Shape := ⟨2, ![11008, 4096]⟩
abbrev S4096x11008 : Shape := ⟨2, ![4096, 11008]⟩
abbrev S512x11008 : Shape := ⟨2, ![512, 11008]⟩
abbrev S1x11008 : Shape := ⟨2, ![1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S32x704512, .i32⟩
  | .hbm, ⟨2, _⟩ => ⟨S1x704512, .f32⟩
  | .hbm, ⟨3, _⟩ => ⟨S1x704512, .f32⟩
  | .hbm, ⟨4, _⟩ => ⟨S11008x32, .f32⟩
  | .hbm, ⟨5, _⟩ => ⟨S32x4096, .f32⟩
  | .hbm, ⟨6, _⟩ => ⟨S11008, .f32⟩
  | .hbm, ⟨7, _⟩ => ⟨S_, .i32⟩
  | .hbm, ⟨8, _⟩ => ⟨S32x704512, .i32⟩
  | .hbm, ⟨9, _⟩ => ⟨S32x704512, .i32⟩
  | .hbm, ⟨10, _⟩ => ⟨S_, .i32⟩
  | .hbm, ⟨11, _⟩ => ⟨S32x704512, .i32⟩
  | .hbm, ⟨12, _⟩ => ⟨S32x704512, .i32⟩
  | .hbm, ⟨13, _⟩ => ⟨S32x704512, .f32⟩
  | .hbm, ⟨14, _⟩ => ⟨S_, .i32⟩
  | .hbm, ⟨15, _⟩ => ⟨S32x704512, .i32⟩
  | .hbm, ⟨16, _⟩ => ⟨S32x704512, .i32⟩
  | .hbm, ⟨17, _⟩ => ⟨S32x704512, .f32⟩
  | .hbm, ⟨18, _⟩ => ⟨S64x704512, .f32⟩
  | .hbm, ⟨19, _⟩ => ⟨S64x704512, .f32⟩
  | .hbm, ⟨20, _⟩ => ⟨S64x704512, .f32⟩
  | .hbm, ⟨21, _⟩ => ⟨S64x704512, .f32⟩
  | .hbm, ⟨22, _⟩ => ⟨S64x704512, .f32⟩
  | .hbm, ⟨23, _⟩ => ⟨S11008x4096, .f32⟩
  | .hbm, ⟨24, _⟩ => ⟨S11008x4096, .f32⟩
  | .hbm, ⟨25, _⟩ => ⟨S11008x4096, .f32⟩
  | .hbm, ⟨26, _⟩ => ⟨S4096x11008, .f32⟩
  | .hbm, ⟨27, _⟩ => ⟨S512x11008, .f32⟩
  | .hbm, ⟨28, _⟩ => ⟨S1x11008, .f32⟩
  | .hbm, ⟨29, _⟩ => ⟨S512x11008, .f32⟩
  | .hbm, ⟨30, _⟩ => ⟨S512x11008, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S32x704512 : S_.BroadcastsInDim S32x704512 (![] : Fin 0 → Fin S32x704512.rank)
  concatenates_S32x704512_S32x704512_S64x704512_d0 : Shape.Concatenates [S32x704512, S32x704512] S64x704512 0
  bcast_S1x704512_S64x704512_0_1 : S1x704512.BroadcastsInDim S64x704512 (![0, 1] : Fin 2 → Fin S64x704512.rank)
  shapeCasts_S64x704512_S11008x4096 : S64x704512.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S512x11008_0_1 : S1x11008.BroadcastsInDim S512x11008 (![0, 1] : Fin 2 → Fin S512x11008.rank)
  dot_S11008x32_S32x4096_S11008x4096_1_0_0_1_n_n_wf : DotDims.WF S11008x32 S32x4096 S11008x4096 [1] [0] [0] [1] [] []
  dot_S512x4096_S4096x11008_S512x11008_1_0_0_1_n_n_wf : DotDims.WF S512x4096 S4096x11008 S512x11008 [1] [0] [0] [1] [] []

variable [Facts₀]

def dot_S11008x32_S32x4096_S11008x4096_1_0_0_1_n_n : DotDims S11008x32 S32x4096 S11008x4096 where
  lhsContracting := [1]
  rhsContracting := [0]
  lhsNonContracting := [0]
  rhsNonContracting := [1]
  lhsBatch := []
  rhsBatch := []
  wf := dot_S11008x32_S32x4096_S11008x4096_1_0_0_1_n_n_wf
def dot_S512x4096_S4096x11008_S512x11008_1_0_0_1_n_n : DotDims S512x4096 S4096x11008 S512x11008 where
  lhsContracting := [1]
  rhsContracting := [0]
  lhsNonContracting := [0]
  rhsNonContracting := [1]
  lhsBatch := []
  rhsBatch := []
  wf := dot_S512x4096_S4096x11008_S512x11008_1_0_0_1_n_n_wf

class Facts : Prop extends Facts₀ where

variable [Facts]
-- ==== Proof.Spec.lean ====
/-
  The two programs as ONE vocabulary of index-level formulas over the seven argument arrays.

  A 4-bit quantised linear layer with a low-rank correction: the weight matrix W [11008, 4096] is stored as
  nibbles, two per word, in groups of 64 rows; output row q = 172 r + s takes its nibble from group member r
  (members 0..31 are the high nibbles of packed rows 0..31, members 32..63 the low nibbles of the same rows)
  at flat position s * 4096 + c of the packed row, the same position that carries the group's scale and zero.

    reference : out[p, q] = (sum over c of x[p, c] * ((nib - zero) * scale + sum over l of U[q, l] * V[l, c])) + bias[q]
    kernel    : out[p, q] = (0 + the sixteen column tiles' partial products x * (nib * scale), added in order)
                            + ((sum over 33 columns of [x V^T | 1] * [U | bias]) - sum over c of x[p, c] * (zero * scale))

  `kerVal` and `refVal` are those two formulas; everything else in the certificate reads one of the two programs
  as one of them, and `kerVal = refVal` on finite inputs is distributivity of the reals.
-/
import Idealize.ShloMosaic.PureOps.Ideal
import Idealize.ShloMosaic.Lib.ValueIdx

noncomputable section

open scoped BigOperators

namespace Cert.Bridge

open Idealize.ShloMosaic Idealize.ShloMosaic.ValueIdx

/-! ## The argument arrays' shapes -/

abbrev SX : Shape := ⟨2, ![512, 4096]⟩
abbrev SW : Shape := ⟨2, ![32, 704512]⟩
abbrev SG : Shape := ⟨2, ![1, 704512]⟩
abbrev SU : Shape := ⟨2, ![11008, 32]⟩
abbrev SV : Shape := ⟨2, ![32, 4096]⟩
abbrev SB : Shape := ⟨1, ![11008]⟩

/-! ## Output column q = 172 r + s, packed position s * 4096 + c, column tile n -/

/-- The group member (0..63) of output column `q`. -/
def qr (q : Fin 11008) : Fin 64 := ⟨q.val / 172, by have := q.isLt; omega⟩
/-- The group row (0..171) of output column `q`. -/
def qs (q : Fin 11008) : Fin 172 := ⟨q.val % 172, Nat.mod_lt _ (by decide)⟩
/-- The flat position, in a packed row of 704512 = 172 * 4096 words, of group row `s` and input column `c`. -/
def gcol (s : Fin 172) (c : Fin 4096) : Fin 704512 := ⟨s.val * 4096 + c.val, by have := s.isLt; have := c.isLt; omega⟩
/-- Input column `256 n + j`, the `j`-th column of tile `n` (total in `n`: beyond the sixteen tiles it wraps and is never used). -/
def tcol (n : ℕ) (j : Fin 256) : Fin 4096 := ⟨(256 * n + j.val) % 4096, Nat.mod_lt _ (by decide)⟩
/-- The packed row (0..31) that group member `r` reads. -/
def rowOf (r : Fin 64) : Fin 32 := ⟨r.val % 32, Nat.mod_lt _ (by decide)⟩

/-! ## The nibbles, as each program extracts them from a packed word -/

/-- Kernel, high nibble: mask to the low byte, then shift right by four. -/
def hiK (w : BitVec 32) : BitVec 32 := IntOp.shrsi .vector (IntOp.andi w 255#32) 4#32
/-- Kernel, low nibble: mask to the low byte, then to the low four bits. -/
def loK (w : BitVec 32) : BitVec 32 := IntOp.andi (IntOp.andi w 255#32) 15#32
/-- Reference, high nibble: arithmetic shift right by four, then mask to four bits. -/
def hiR (w : BitVec 32) : BitVec 32 := IntOp.andi (IntOp.shrsi .host w 4#32) 15#32
/-- Reference, low nibble: mask to four bits. -/
def loR (w : BitVec 32) : BitVec 32 := IntOp.andi w 15#32

/-- The kernel's nibble for group member `r` at packed position `g`, as an extended real. -/
def nibK (Wq : SW.Idx → BitVec 32) (r : Fin 64) (g : Fin 704512) : EReal :=
  (((if r.val < 32 then hiK (Wq (ix2 (rowOf r) g)) else loK (Wq (ix2 (rowOf r) g))).toInt : ℝ) : EReal)
/-- The reference's nibble for group member `r` at packed position `g`, as an extended real. -/
def nibR (Wq : SW.Idx → BitVec 32) (r : Fin 64) (g : Fin 704512) : EReal :=
  (((if r.val < 32 then hiR (Wq (ix2 (rowOf r) g)) else loR (Wq (ix2 (rowOf r) g))).toInt : ℝ) : EReal)

/-! ## The kernel's formula -/

/-- Column tile `n`'s partial product for output (p, q): the 256 columns of the tile, x times (nibble times scale). -/
def kerTile (X : SX.Idx → EReal) (Wq : SW.Idx → BitVec 32) (Sc : SG.Idx → EReal) (p : Fin 512) (q : Fin 11008) (n : ℕ) : EReal :=
  ∑ j : Fin 256, X (ix2 p (tcol n j)) * (nibK Wq (qr q) (gcol (qs q) (tcol n j)) * Sc (ix2 (0 : Fin 1) (gcol (qs q) (tcol n j))))

/-- Column `l` of [x V^T | 1] at row `p`. -/
def xvt (X : SX.Idx → EReal) (Vm : SV.Idx → EReal) (p : Fin 512) (l : Fin 33) : EReal :=
  if h : l.val < 32 then ∑ c : Fin 4096, X (ix2 p c) * Vm (ix2 (⟨l.val, h⟩ : Fin 32) c) else 1
/-- Column `l` of [U | bias] at row `q`. -/
def uaug (Um : SU.Idx → EReal) (Bs : SB.Idx → EReal) (q : Fin 11008) (l : Fin 33) : EReal :=
  if h : l.val < 32 then Um (ix2 q (⟨l.val, h⟩ : Fin 32)) else Bs (ix1 q)
/-- The hoisted zero-point term for row `p` and group row `s`: sum over c of x * (zero * scale). -/
def corr (X : SX.Idx → EReal) (Zr Sc : SG.Idx → EReal) (p : Fin 512) (s : Fin 172) : EReal :=
  ∑ c : Fin 4096, X (ix2 p c) * (Zr (ix2 (0 : Fin 1) (gcol s c)) * Sc (ix2 (0 : Fin 1) (gcol s c)))

/-- What the kernel leaves at output (p, q): zero, plus tiles 0..14 in order, plus tile 15, plus the epilogue's
    (fused low-rank-and-bias product minus the hoisted zero-point term). -/
def kerVal (X : SX.Idx → EReal) (Wq : SW.Idx → BitVec 32) (Sc Zr : SG.Idx → EReal) (Um : SU.Idx → EReal) (Vm : SV.Idx → EReal)
    (Bs : SB.Idx → EReal) (p : Fin 512) (q : Fin 11008) : EReal :=
  ((0 + ∑ n ∈ Finset.range 15, kerTile X Wq Sc p q n) + kerTile X Wq Sc p q 15)
    + ((∑ l : Fin 33, xvt X Vm p l * uaug Um Bs q l) - corr X Zr Sc p (qs q))

/-! ## The reference's formula -/

/-- What the reference computes at output (p, q). -/
def refVal (X : SX.Idx → EReal) (Wq : SW.Idx → BitVec 32) (Sc Zr : SG.Idx → EReal) (Um : SU.Idx → EReal) (Vm : SV.Idx → EReal)
    (Bs : SB.Idx → EReal) (p : Fin 512) (q : Fin 11008) : EReal :=
  (∑ c : Fin 4096, X (ix2 p c) *
      ((nibR Wq (qr q) (gcol (qs q) c) - Zr (ix2 (0 : Fin 1) (gcol (qs q) c))) * Sc (ix2 (0 : Fin 1) (gcol (qs q) c))
        + ∑ l : Fin 32, Um (ix2 q l) * Vm (ix2 l c)))
    + Bs (ix1 q)

end Cert.Bridge

end
-- ==== Proof.Payloads.lean ====
/-
  The idealized kernel body's three stored values, read at one output element (p, q), q = 172 r + s:
  the zero splat; the accumulator plus the x tile times the dequantised weight tile (a sum over the tile's 256
  columns of x times nibble times scale, the nibble taken from packed row r mod 32, high or low by r < 32); and
  the epilogue, the accumulator plus (the 33-column product of [x V^T | 1] with [U | bias], minus the hoisted
  zero-point term of group row s).
-/
import proofs.«426867_j79929341379025_3_alg».proof.Proof.Gen.KernelIdeal.Skeleton
import proofs.«426867_j79929341379025_3_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Payloads

open Cert.KernelIdeal Cert.KernelIdeal.Gen Idealize.ShloMosaic Idealize.ShloMosaic.ValueIdx Cert.Bridge

/-- The nibble the body computes for group member `r`, group row `s`, tile column `j` from its loaded tile of packed words. -/
def nibBlk (v3 : Vec Ideal S32x172x256 .i32) (r : Fin 64) (s : Fin 172) (j : Fin 256) : EReal :=
  (((if r.val < 32 then hiK (v3 (ix3 (rowOf r) s j)) else loK (v3 (ix3 (rowOf r) s j))).toInt : ℝ) : EReal)

/-- The reset value: zero everywhere. -/
theorem pay1_apply (i : S512x11008.Idx) : k0_pay1 (F := Ideal) i = 0 := by
  unfold k0_pay1
  exact Ideal.ofBits_zero_f32

/-! ## The tile product: a [512, 256] by [256, 11008] contraction over the tile's 256 columns -/

theorem lhs2_0 (i : S512x11008.Idx) (k : dot_S512x256_S256x11008_S512x11008_1_0_0_1_n_n.contr.Idx) :
    (dot_S512x256_S256x11008_S512x11008_1_0_0_1_n_n.lhsIdx i k 0).val = (i 0).val := by
  unfold DotDims.lhsIdx
  rw [dif_neg (show ¬(0 : Fin S512x256.rank) ∈ dot_S512x256_S256x11008_S512x11008_1_0_0_1_n_n.lhsBatch by decide), dif_pos (show (0 : Fin S512x256.rank) ∈ dot_S512x256_S256x11008_S512x11008_1_0_0_1_n_n.lhsNonContracting by decide)]
  rfl
theorem lhs2_1 (i : S512x11008.Idx) (k : dot_S512x256_S256x11008_S512x11008_1_0_0_1_n_n.contr.Idx) :
    (dot_S512x256_S256x11008_S512x11008_1_0_0_1_n_n.lhsIdx i k 1).val = (k ⟨0, by decide⟩).val :=
  dot_S512x256_S256x11008_S512x11008_1_0_0_1_n_n.lhsIdx_val_of_single rfl i k
theorem rhs2_0 (i : S512x11008.Idx) (k : dot_S512x256_S256x11008_S512x11008_1_0_0_1_n_n.contr.Idx) :
    (dot_S512x256_S256x11008_S512x11008_1_0_0_1_n_n.rhsIdx i k 0).val = (k ⟨0, by decide⟩).val :=
  dot_S512x256_S256x11008_S512x11008_1_0_0_1_n_n.rhsIdx_val_of_single rfl i k
theorem rhs2_1 (i : S512x11008.Idx) (k : dot_S512x256_S256x11008_S512x11008_1_0_0_1_n_n.contr.Idx) :
    (dot_S512x256_S256x11008_S512x11008_1_0_0_1_n_n.rhsIdx i k 1).val = (i 1).val := by
  unfold DotDims.rhsIdx
  rw [dif_neg (show ¬(1 : Fin S256x11008.rank) ∈ dot_S512x256_S256x11008_S512x11008_1_0_0_1_n_n.rhsBatch by decide), dif_pos (show (1 : Fin S256x11008.rank) ∈ dot_S512x256_S256x11008_S512x11008_1_0_0_1_n_n.rhsNonContracting by decide)]
  rfl

/-- The tile's matrix product into the zero accumulator, at (p, q): the sum over the 256 columns of the products. -/
theorem mm2_apply (a : FVec Ideal S512x256 .bf16) (b : FVec Ideal S256x11008 .bf16) (p : Fin 512) (q : Fin 11008) :
    matmul dot_S512x256_S256x11008_S512x11008_1_0_0_1_n_n none a b (constant (F := Ideal) S512x11008 .f32 0x00000000#32) (ix2 p q)
      = ∑ j : Fin 256, a (ix2 p j) * b (ix2 j q) := by
  refine (Ideal.matmul_constant_zero_apply dot_S512x256_S256x11008_S512x11008_1_0_0_1_n_n none a b (ix2 p q)).trans ?_
  rw [← Equiv.sum_comp (ValueIdx.contrEquiv1 dot_S512x256_S256x11008_S512x11008_1_0_0_1_n_n 256 rfl rfl).symm]
  refine Finset.sum_congr rfl fun k _ => ?_
  have hk := ValueIdx.contrEquiv1_symm_val dot_S512x256_S256x11008_S512x11008_1_0_0_1_n_n 256 rfl rfl k
  have el : dot_S512x256_S256x11008_S512x11008_1_0_0_1_n_n.lhsIdx (ix2 p q) ((ValueIdx.contrEquiv1 dot_S512x256_S256x11008_S512x11008_1_0_0_1_n_n 256 rfl rfl).symm k) = ix2 p k := funext fun a => Fin.ext (by
    match a with
    | ⟨0, _⟩ => exact lhs2_0 _ _
    | ⟨1, _⟩ => exact (lhs2_1 _ _).trans hk)
  have er : dot_S512x256_S256x11008_S512x11008_1_0_0_1_n_n.rhsIdx (ix2 p q) ((ValueIdx.contrEquiv1 dot_S512x256_S256x11008_S512x11008_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-! ## The dequantised weight tile -/

/-- The scale tile broadcast over the 32 packed rows reads the scale of the group row and column. -/
theorem scale_apply (v13 : Vec Ideal S1x172x256 .f32) (r : Fin 32) (s : Fin 172) (j : Fin 256) :
    broadcastTo S32x172x256 (shapeCast S1x172x256 v13 shapeCasts_S1x172x256_S1x172x256) broadcasts_S1x172x256_S32x172x256 (ix3 r s j)
      = v13 (ix3 (0 : Fin 1) s j) := by
  rw [shapeCast_self]
  refine broadcastTo_apply v13 broadcasts_S1x172x256_S32x172x256 (ix3 r s j) (ix3 (0 : Fin 1) s j) fun ax => ?_
  match ax with
  | ⟨0, _⟩ => rfl
  | ⟨1, _⟩ => rfl
  | ⟨2, _⟩ => rfl

/-- The high-nibble piece: packed row `r`'s high nibble times the scale. -/
def wHi (v3 : Vec Ideal S32x172x256 .i32) (v13 : Vec Ideal S1x172x256 .f32) : FVec Ideal S32x172x256 .bf16 :=
  truncf .bf16 (mulf (sitofp .f32 (shrsi (andi (shapeCast S32x172x256 v3 shapeCasts_S32x172x256_S32x172x256) (broadcast S32x172x256 255#32)) (broadcast S32x172x256 4#32)))
    (broadcastTo S32x172x256 (shapeCast S1x172x256 v13 shapeCasts_S1x172x256_S1x172x256) broadcasts_S1x172x256_S32x172x256)) bitsLt_bf16_f32
/-- The low-nibble piece: packed row `r`'s low nibble times the scale. -/
def wLo (v3 : Vec Ideal S32x172x256 .i32) (v13 : Vec Ideal S1x172x256 .f32) : FVec Ideal S32x172x256 .bf16 :=
  truncf .bf16 (mulf (sitofp .f32 (andi (andi (shapeCast S32x172x256 v3 shapeCasts_S32x172x256_S32x172x256) (broadcast S32x172x256 255#32)) (broadcast S32x172x256 15#32)))
    (broadcastTo S32x172x256 (shapeCast S1x172x256 v13 shapeCasts_S1x172x256_S1x172x256) broadcasts_S1x172x256_S32x172x256)) bitsLt_bf16_f32

theorem wHi_apply (v3 : Vec Ideal S32x172x256 .i32) (v13 : Vec Ideal S1x172x256 .f32) (r : Fin 32) (s : Fin 172) (j : Fin 256) :
    wHi v3 v13 (ix3 r s j) = (((hiK (v3 (ix3 r s j))).toInt : ℝ) : EReal) * v13 (ix3 (0 : Fin 1) s j) := by
  unfold wHi
  rw [shapeCast_self v3]
  exact congrArg ((((hiK (v3 (ix3 r s j))).toInt : ℝ) : EReal) * ·) (scale_apply v13 r s j)

theorem wLo_apply (v3 : Vec Ideal S32x172x256 .i32) (v13 : Vec Ideal S1x172x256 .f32) (r : Fin 32) (s : Fin 172) (j : Fin 256) :
    wLo v3 v13 (ix3 r s j) = (((loK (v3 (ix3 r s j))).toInt : ℝ) : EReal) * v13 (ix3 (0 : Fin 1) s j) := by
  unfold wLo
  rw [shapeCast_self v3]
  exact congrArg ((((loK (v3 (ix3 r s j))).toInt : ℝ) : EReal) * ·) (scale_apply v13 r s j)

/-- The two pieces joined along the member axis: member `r` below 32 reads the first piece at row `r`, otherwise the second at `r - 32`;
    either way the row is `r mod 32`. -/
theorem cat_apply (A B : FVec Ideal S32x172x256 .bf16) (r : Fin 64) (s : Fin 172) (j : Fin 256) :
    concatenate S64x172x256 0 [⟨S32x172x256, A⟩, ⟨S32x172x256, B⟩] concatenates_S32x172x256_S32x172x256_S64x172x256_d0 (ix3 r s j)
      = if r.val < 32 then A (ix3 (rowOf r) s j) else B (ix3 (rowOf r) s j) := by
  have hr := r.isLt
  by_cases h : r.val < 32
  · rw [if_pos h]
    refine concatenate_pair_apply_left _ A B concatenates_S32x172x256_S32x172x256_S64x172x256_d0 (ix3 r s j) rfl (ix3 (rowOf r) s j) fun b => ?_
    match b with
    | ⟨0, _⟩ => show r.val % 32 = r.val; omega
    | ⟨1, _⟩ => rfl
    | ⟨2, _⟩ => rfl
  · rw [if_neg h]
    refine concatenate_pair_apply_right _ A B concatenates_S32x172x256_S32x172x256_S64x172x256_d0 (ix3 r s j) rfl rfl (ix3 (rowOf r) s j) (fun b hb => ?_) ?_
    · match b with
      | ⟨0, _⟩ => exact absurd rfl hb
      | ⟨1, _⟩ => rfl
      | ⟨2, _⟩ => rfl
    · show r.val % 32 + 32 = r.val; omega

/-- The weight tile as a [11008, 256] matrix: row q = 172 r + s is member r's group row s. -/
def wMat (v3 : Vec Ideal S32x172x256 .i32) (v13 : Vec Ideal S1x172x256 .f32) : FVec Ideal S11008x256 .bf16 :=
  shapeCast S11008x256 (concatenate S64x172x256 0 [⟨S32x172x256, wHi v3 v13⟩, ⟨S32x172x256, wLo v3 v13⟩] concatenates_S32x172x256_S32x172x256_S64x172x256_d0) shapeCasts_S64x172x256_S11008x256

theorem wMat_apply (v3 : Vec Ideal S32x172x256 .i32) (v13 : Vec Ideal S1x172x256 .f32) (q : Fin 11008) (j : Fin 256) :
    wMat v3 v13 (ix2 q j) = nibBlk v3 (qr q) (qs q) j * v13 (ix3 (0 : Fin 1) (qs q) j) := by
  unfold wMat
  refine (shapeCast_apply _ shapeCasts_S64x172x256_S11008x256 (ix2 q j) (ix3 (qr q) (qs q) j) ?_).trans ?_
  · rw [Shape.rowMajor_val_three, Shape.rowMajor_val_two]
    have hq := q.isLt
    show (q.val / 172 * 172 + q.val % 172) * 256 + j.val = q.val * 256 + j.val
    omega
  · refine (cat_apply (wHi v3 v13) (wLo v3 v13) (qr q) (qs q) j).trans ?_
    unfold nibBlk
    by_cases h : (qr q).val < 32
    · rw [if_pos h, if_pos h]; exact wHi_apply v3 v13 _ _ _
    · rw [if_neg h, if_neg h]; exact wLo_apply v3 v13 _ _ _

/-- One tile's update at (p, q): the accumulator plus the tile's partial product. -/
theorem pay2_apply (v3 : Vec Ideal S32x172x256 .i32) (v13 : Vec Ideal S1x172x256 .f32) (v23 : Vec Ideal S512x256 .f32)
    (v25 : Vec Ideal S512x11008 .f32) (p : Fin 512) (q : Fin 11008) :
    k0_pay2 v3 v13 v23 v25 (ix2 p q)
      = v25 (ix2 p q) + ∑ j : Fin 256, v23 (ix2 p j) * (nibBlk v3 (qr q) (qs q) j * v13 (ix3 (0 : Fin 1) (qs q) j)) := by
  have e : k0_pay2 v3 v13 v23 v25
      = addf (shapeCast S512x11008 v25 shapeCasts_S512x11008_S512x11008)
          (matmul dot_S512x256_S256x11008_S512x11008_1_0_0_1_n_n none (truncf .bf16 v23 bitsLt_bf16_f32)
            (transpose S256x11008 [1, 0] (wMat v3 v13) transposes_S11008x256_p1_0_S256x11008) (constant (F := Ideal) S512x11008 .f32 0x00000000#32)) := rfl
  rw [e, shapeCast_self]
  refine congrArg (v25 (ix2 p q) + ·) ?_
  refine (mm2_apply _ _ p q).trans ?_
  refine Finset.sum_congr rfl fun j _ => ?_
  refine congrArg (v23 (ix2 p j) * ·) ?_
  refine (transpose_ix2_apply (wMat v3 v13) transposes_S11008x256_p1_0_S256x11008 j q).trans ?_
  exact wMat_apply v3 v13 q j

/-! ## The epilogue's product: a [512, 33] by [11008, 33] contraction over the 33 columns of both operands -/

theorem lhs3_0 (i : S512x11008.Idx) (k : dot_S512x33_S11008x33_S512x11008_1_1_0_0_n_n.contr.Idx) :
    (dot_S512x33_S11008x33_S512x11008_1_1_0_0_n_n.lhsIdx i k 0).val = (i 0).val := by
  unfold DotDims.lhsIdx
  rw [dif_neg (show ¬(0 : Fin S512x33.rank) ∈ dot_S512x33_S11008x33_S512x11008_1_1_0_0_n_n.lhsBatch by decide), dif_pos (show (0 : Fin S512x33.rank) ∈ dot_S512x33_S11008x33_S512x11008_1_1_0_0_n_n.lhsNonContracting by decide)]
  rfl
theorem lhs3_1 (i : S512x11008.Idx) (k : dot_S512x33_S11008x33_S512x11008_1_1_0_0_n_n.contr.Idx) :
    (dot_S512x33_S11008x33_S512x11008_1_1_0_0_n_n.lhsIdx i k 1).val = (k ⟨0, by decide⟩).val :=
  dot_S512x33_S11008x33_S512x11008_1_1_0_0_n_n.lhsIdx_val_of_single rfl i k
theorem rhs3_0 (i : S512x11008.Idx) (k : dot_S512x33_S11008x33_S512x11008_1_1_0_0_n_n.contr.Idx) :
    (dot_S512x33_S11008x33_S512x11008_1_1_0_0_n_n.rhsIdx i k 0).val = (i 1).val := by
  unfold DotDims.rhsIdx
  rw [dif_neg (show ¬(0 : Fin S11008x33.rank) ∈ dot_S512x33_S11008x33_S512x11008_1_1_0_0_n_n.rhsBatch by decide), dif_pos (show (0 : Fin S11008x33.rank) ∈ dot_S512x33_S11008x33_S512x11008_1_1_0_0_n_n.rhsNonContracting by decide)]
  rfl
theorem rhs3_1 (i : S512x11008.Idx) (k : dot_S512x33_S11008x33_S512x11008_1_1_0_0_n_n.contr.Idx) :
    (dot_S512x33_S11008x33_S512x11008_1_1_0_0_n_n.rhsIdx i k 1).val = (k ⟨0, by decide⟩).val :=
  dot_S512x33_S11008x33_S512x11008_1_1_0_0_n_n.rhsIdx_val_of_single rfl i k

/-- The epilogue's matrix product into the zero accumulator, at (p, q): the sum over the 33 columns of the products. -/
theorem mm3_apply (a : FVec Ideal S512x33 .f32) (b : FVec Ideal S11008x33 .f32) (p : Fin 512) (q : Fin 11008) :
    matmul dot_S512x33_S11008x33_S512x11008_1_1_0_0_n_n none a b (constant (F := Ideal) S512x11008 .f32 0x00000000#32) (ix2 p q)
      = ∑ l : Fin 33, a (ix2 p l) * b (ix2 q l) := by
  refine (Ideal.matmul_constant_zero_apply dot_S512x33_S11008x33_S512x11008_1_1_0_0_n_n none a b (ix2 p q)).trans ?_
  rw [← Equiv.sum_comp (ValueIdx.contrEquiv1 dot_S512x33_S11008x33_S512x11008_1_1_0_0_n_n 33 rfl rfl).symm]
  refine Finset.sum_congr rfl fun k _ => ?_
  have hk := ValueIdx.contrEquiv1_symm_val dot_S512x33_S11008x33_S512x11008_1_1_0_0_n_n 33 rfl rfl k
  have el : dot_S512x33_S11008x33_S512x11008_1_1_0_0_n_n.lhsIdx (ix2 p q) ((ValueIdx.contrEquiv1 dot_S512x33_S11008x33_S512x11008_1_1_0_0_n_n 33 rfl rfl).symm k) = ix2 p k := funext fun a => Fin.ext (by
    match a with
    | ⟨0, _⟩ => exact lhs3_0 _ _
    | ⟨1, _⟩ => exact (lhs3_1 _ _).trans hk)
  have er : dot_S512x33_S11008x33_S512x11008_1_1_0_0_n_n.rhsIdx (ix2 p q) ((ValueIdx.contrEquiv1 dot_S512x33_S11008x33_S512x11008_1_1_0_0_n_n 33 rfl rfl).symm k) = ix2 q k := funext fun a => Fin.ext (by
    match a with
    | ⟨0, _⟩ => exact rhs3_0 _ _
    | ⟨1, _⟩ => exact (rhs3_1 _ _).trans hk)
  rw [el, er]

/-- The hoisted zero-point term spread over the 64 group members: column q = 172 r + s reads group row s. -/
theorem spread_apply (v39 : Vec Ideal S512x172 .f32) (p : Fin 512) (q : Fin 11008) :
    shapeCast S512x11008
        (broadcastTo S512x64x172
          (shapeCast S512x1x172
            (shapeCast S512x1x172 (shapeCast S512x172 v39 shapeCasts_S512x172_S512x172) shapeCasts_S512x172_S512x1x172)
            shapeCasts_S512x1x172_S512x1x172)
          broadcasts_S512x1x172_S512x64x172)
        shapeCasts_S512x64x172_S512x11008 (ix2 p q)
      = v39 (ix2 p (qs q)) := by
  rw [shapeCast_self v39, shapeCast_self (shapeCast S512x1x172 v39 shapeCasts_S512x172_S512x1x172)]
  refine (shapeCast_apply _ shapeCasts_S512x64x172_S512x11008 (ix2 p q) (ix3 p (qr q) (qs q)) ?_).trans ?_
  · rw [Shape.rowMajor_val_three, Shape.rowMajor_val_two]
    have hq := q.isLt
    show (p.val * 64 + q.val / 172) * 172 + q.val % 172 = p.val * 11008 + q.val
    omega
  refine (broadcastTo_apply _ broadcasts_S512x1x172_S512x64x172 (ix3 p (qr q) (qs q)) (ix3 p (0 : Fin 1) (qs q)) fun ax => ?_).trans ?_
  · match ax with
    | ⟨0, _⟩ => rfl
    | ⟨1, _⟩ => rfl
    | ⟨2, _⟩ => rfl
  refine shapeCast_apply v39 shapeCasts_S512x172_S512x1x172 (ix3 p (0 : Fin 1) (qs q)) (ix2 p (qs q)) ?_
  rw [Shape.rowMajor_val_three, Shape.rowMajor_val_two]
  show p.val * 172 + (q.val % 172) = (p.val * 1 + 0) * 172 + q.val % 172
  omega

/-- The epilogue at (p, q): the accumulator plus (fused low-rank-and-bias product minus hoisted zero-point term). -/
theorem pay3_apply (v34 : Vec Ideal S512x33 .f32) (v36 : Vec Ideal S11008x33 .f32) (v39 : Vec Ideal S512x172 .f32)
    (v45 : Vec Ideal S512x11008 .f32) (p : Fin 512) (q : Fin 11008) :
    k0_pay3 v34 v36 v39 v45 (ix2 p q)
      = v45 (ix2 p q) + ((∑ l : Fin 33, v34 (ix2 p l) * v36 (ix2 q l)) - v39 (ix2 p (qs q))) := by
  unfold k0_pay3
  rw [shapeCast_self v45, shapeCast_self v34, shapeCast_self v36]
  refine congrArg (v45 (ix2 p q) + ·) ?_
  exact congrArg₂ (· - ·) (mm3_apply v34 v36 p q) (spread_apply v39 p q)

end Cert.KernelIdeal.Payloads

end
-- ==== Proof.BlockNames.lean ====
/-
  Names, of literal vector types, for what the idealized kernel's body sees at a grid point: the six input
  blocks (the packed-weight tile, the scale tile, the x tile, and the three operands held whole: [x V^T | 1],
  [U | bias], the hoisted zero-point term), and the seven argument arrays as the program was launched with them.
-/
import proofs.«426867_j79929341379025_3_alg».proof.Proof.Gen.KernelIdeal.Frame
import proofs.«426867_j79929341379025_3_alg».proof.Proof.Spec

noncomputable section

namespace Cert.KernelIdeal.Blocks

open Cert.KernelIdeal Cert.KernelIdeal.Gen Idealize.ShloMosaic Idealize.ShloMosaic.TcCoe Idealize.SL.Sem
open Cert.Bridge

variable (m : (ℓ : Loc nD τ sig) → Buf (Elt Ideal) ℓ)

/-- The packed-weight tile [32, 172, 256] at point `t`. -/
abbrev wqBlk (c : Dev nD) (t : Fin cfg0.N) : Vec Ideal S32x172x256 .i32 := iblk m c 0 t
/-- The scale tile [1, 172, 256] at point `t`. -/
abbrev scBlk (c : Dev nD) (t : Fin cfg0.N) : Vec Ideal S1x172x256 .f32 := iblk m c 1 t
/-- The x tile [512, 256] at point `t`. -/
abbrev xBlk (c : Dev nD) (t : Fin cfg0.N) : Vec Ideal S512x256 .f32 := iblk m c 2 t
/-- [x V^T | 1], held whole. -/
abbrev xvtBlk (c : Dev nD) (t : Fin cfg0.N) : Vec Ideal S512x33 .f32 := iblk m c 3 t
/-- [U | bias], held whole. -/
abbrev uBlk (c : Dev nD) (t : Fin cfg0.N) : Vec Ideal S11008x33 .f32 := iblk m c 4 t
/-- The hoisted zero-point term [512, 172], held whole. -/
abbrev corrBlk (c : Dev nD) (t : Fin cfg0.N) : Vec Ideal S512x172 .f32 := iblk m c 5 t

/-- x [512, 4096]. -/
abbrev argX (c : Dev nD) : SX.Idx → EReal := m ((c : Thread nD τ).loc main_arg0)
/-- The packed weights [32, 704512]. -/
abbrev argW (c : Dev nD) : SW.Idx → BitVec 32 := m ((c : Thread nD τ).loc main_arg1)
/-- scale [1, 704512]. -/
abbrev argSc (c : Dev nD) : SG.Idx → EReal := m ((c : Thread nD τ).loc main_arg2)
/-- zero [1, 704512]. -/
abbrev argZr (c : Dev nD) : SG.Idx → EReal := m ((c : Thread nD τ).loc main_arg3)
/-- U [11008, 32]. -/
abbrev argU (c : Dev nD) : SU.Idx → EReal := m ((c : Thread nD τ).loc main_arg4)
/-- V [32, 4096]. -/
abbrev argV (c : Dev nD) : SV.Idx → EReal := m ((c : Thread nD τ).loc main_arg5)
/-- bias [11008]. -/
abbrev argB (c : Dev nD) : SB.Idx → EReal := m ((c : Thread nD τ).loc main_arg6)

end Cert.KernelIdeal.Blocks

end
-- ==== Proof.BlocksTile.lean ====
/-
  The three tiled input blocks at grid point t, read at an element: tile t of the packed weights viewed as
  [32, 172, 4096], of the scale viewed as [1, 172, 4096], and of x — each the argument array at input column
  256 t + j (for the two grouped arrays at flat position s * 4096 + 256 t + j of the packed row).
-/
import proofs.«426867_j79929341379025_3_alg».proof.Proof.BlockNames
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Bridge

variable (m : (ℓ : Loc nD τ sig) → Buf (Elt Ideal) ℓ)

/-- The three tiled windows' block indices at grid point t: zero on every axis but the last, t on the last. -/
private theorem tile_index_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val :=
  (by decide +kernel : ∀ t : Fin grid0.N, _)

/-- The packed weights viewed as [32, 172, 4096], as the region finds them: the reshape of the argument array. -/
private theorem V_main_v0 (c : Dev nD) :
    (V m c main_v0 : S32x172x4096.Idx → BitVec 32)
      = shapeCast S32x172x4096 (argW m c) shapeCasts_S32x704512_S32x172x4096 := by
  dsimp only [Gen.V, Gen.hostOps0]; after_results; rfl

/-- Position (h, s, k) of the [32, 172, 4096] view is position (h, s * 4096 + k) of the packed row. -/
private theorem shapeCast_W_apply {α : Type} (x : SW.Idx → α) (hc : SW.ShapeCasts S32x172x4096) (h : Fin 32) (s : Fin 172) (k : Fin 4096) :
    shapeCast S32x172x4096 x hc (ix3 h s k) = x (ix2 h (gcol s k)) :=
  shapeCast_apply x hc _ _ (by
    rw [Shape.rowMajor_val_two, Shape.rowMajor_val_three]
    show h.val * 704512 + (s.val * 4096 + k.val) = (h.val * 172 + s.val) * 4096 + k.val
    omega)

theorem wqBlk_apply (c : Dev nD) (t : Fin cfg0.N) (h : Fin 32) (s : Fin 172) (j : Fin 256) :
    wqBlk m c t (ix3 h s j) = argW m c (ix2 h (gcol s (tcol t.val j))) := by
  have hN : t.val < 16 := lt_of_lt_of_eq t.isLt N_0
  obtain ⟨e0, e1, e2, -, -, -, -, -⟩ := tile_index_facts t
  have hemb : ((cfg0.win 0).blk t).view.emb (ix3 h s j) = ix3 h s (tcol t.val j) := by
    funext a; apply Fin.ext
    match a with
    | ⟨0, _⟩ => show win0_0.index t (0 : Fin 3) * 32 + 1 * h.val = h.val; omega
    | ⟨1, _⟩ => show win0_0.index t (1 : Fin 3) * 172 + 1 * s.val = s.val; omega
    | ⟨2, _⟩ => show win0_0.index t (2 : Fin 3) * 256 + 1 * j.val = (256 * t.val + j.val) % 4096; have := j.isLt; omega
  show V m c main_v0 (((cfg0.win 0).blk t).view.emb (ix3 h s j)) = argW m c (ix2 h (gcol s (tcol t.val j)))
  rw [hemb]
  exact (congrFun (V_main_v0 m c) _).trans (shapeCast_W_apply _ _ h s (tcol t.val j))

/-- The scale viewed as [1, 172, 4096], as the region finds it: the reshape of the argument array. -/
private theorem V_main_v1 (c : Dev nD) :
    (V m c main_v1 : S1x172x4096.Idx → EReal)
      = shapeCast S1x172x4096 (argSc m c) shapeCasts_S1x704512_S1x172x4096 := by
  dsimp only [Gen.V, Gen.hostOps0]; after_results; rfl

/-- Position (0, s, k) of the [1, 172, 4096] view is position (0, s * 4096 + k) of the one packed row. -/
private theorem shapeCast_G_apply {α : Type} (x : SG.Idx → α) (hc : SG.ShapeCasts S1x172x4096) (u : Fin 1) (s : Fin 172) (k : Fin 4096) :
    shapeCast S1x172x4096 x hc (ix3 u s k) = x (ix2 u (gcol s k)) :=
  shapeCast_apply x hc _ _ (by
    rw [Shape.rowMajor_val_two, Shape.rowMajor_val_three]
    show u.val * 704512 + (s.val * 4096 + k.val) = (u.val * 172 + s.val) * 4096 + k.val
    omega)

theorem scBlk_apply (c : Dev nD) (t : Fin cfg0.N) (s : Fin 172) (j : Fin 256) :
    scBlk m c t (ix3 (0 : Fin 1) s j) = argSc m c (ix2 (0 : Fin 1) (gcol s (tcol t.val j))) := by
  have hN : t.val < 16 := lt_of_lt_of_eq t.isLt N_0
  obtain ⟨-, -, -, e0, e1, e2, -, -⟩ := tile_index_facts t
  have hemb : ((cfg0.win 1).blk t).view.emb (ix3 (0 : Fin 1) s j) = ix3 (0 : Fin 1) s (tcol t.val j) := by
    funext a; apply Fin.ext
    match a with
    | ⟨0, _⟩ => show win0_1.index t (0 : Fin 3) * 1 + 1 * 0 = 0; omega
    | ⟨1, _⟩ => show win0_1.index t (1 : Fin 3) * 172 + 1 * s.val = s.val; omega
    | ⟨2, _⟩ => show win0_1.index t (2 : Fin 3) * 256 + 1 * j.val = (256 * t.val + j.val) % 4096; have := j.isLt; omega
  show V m c main_v1 (((cfg0.win 1).blk t).view.emb (ix3 (0 : Fin 1) s j)) = argSc m c (ix2 (0 : Fin 1) (gcol s (tcol t.val j)))
  rw [hemb]
  exact (congrFun (V_main_v1 m c) _).trans (shapeCast_G_apply _ _ 0 s (tcol t.val j))

theorem xBlk_apply (c : Dev nD) (t : Fin cfg0.N) (p : Fin 512) (j : Fin 256) :
    xBlk m c t (ix2 p j) = argX m c (ix2 p (tcol t.val j)) := by
  have hN : t.val < 16 := lt_of_lt_of_eq t.isLt N_0
  obtain ⟨-, -, -, -, -, -, e0, e1⟩ := tile_index_facts t
  show V m c main_arg0 (((cfg0.win 2).blk t).view.emb (ix2 p j)) = m ((c : Thread nD τ).loc main_arg0) (ix2 p (tcol t.val j))
  rw [V_main_arg0]
  refine congrArg _ ?_
  funext a; apply Fin.ext
  match a with
  | ⟨0, _⟩ => show win0_2.index t (0 : Fin 2) * 512 + 1 * p.val = p.val; omega
  | ⟨1, _⟩ => show win0_2.index t (1 : Fin 2) * 256 + 1 * j.val = (256 * t.val + j.val) % 4096; have := j.isLt; omega

end Cert.KernelIdeal.Blocks

end
-- ==== Proof.BlocksWhole.lean ====
/-
  The three operands the kernel holds whole, as the host operations before the launch built them, read at an
  element: [x V^T | 1] (columns 0..31 of x times the transpose of [V ; zero * scale], then a column of ones),
  [U | bias], and the hoisted zero-point term (columns 32..203 of the same product: x against zero * scale,
  one column per group row).
-/
import proofs.«426867_j79929341379025_3_alg».proof.Proof.BlockNames
import Idealize.ShloMosaic.Lib.Pipeline.Value
import Idealize.ShloMosaic.Lib.StableHlo.Run
import Idealize.ShloMosaic.PureOps.Ideal.Laws
import Idealize.ShloMosaic.Lib.IdealHost

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Bridge

variable (m : (ℓ : Loc nD τ sig) → Buf (Elt Ideal) ℓ)

namespace Whole

/-! ## The host operations' terms, over arbitrary operands -/

/-- The rows of V stacked over the 172 rows of zero * scale: [204, 4096]. -/
def stackedVZ (Vm : FVec Ideal S32x4096 .f32) (Zr Sc : FVec Ideal S1x704512 .f32) : FVec Ideal S204x4096 .f32 :=
  concatenate S204x4096 0
    [⟨S32x4096, Vm⟩, ⟨S172x4096, shapeCast S172x4096 (mulf Zr Sc : FVec Ideal S1x704512 .f32) shapeCasts_S1x704512_S172x4096⟩]
    concatenates_S32x4096_S172x4096_S204x4096_d0

/-- x times the transpose of the stacked matrix: [512, 204]. -/
def xProd (X : FVec Ideal S512x4096 .f32) (Vm : FVec Ideal S32x4096 .f32) (Zr Sc : FVec Ideal S1x704512 .f32) :
    FVec Ideal S512x204 .f32 :=
  Host.dotGeneral dot_S512x4096_S4096x204_S512x204_1_0_0_1_n_n (some .fp32) X
    (transpose S4096x204 [1, 0] (stackedVZ Vm Zr Sc) transposes_S204x4096_S4096x204_1_0 : FVec Ideal S4096x204 .f32)

/-- Columns 0..31 of the product, then a column of ones: [512, 33]. -/
def xvtArr (X : FVec Ideal S512x4096 .f32) (Vm : FVec Ideal S32x4096 .f32) (Zr Sc : FVec Ideal S1x704512 .f32) :
    FVec Ideal S512x33 .f32 :=
  concatenate S512x33 1
    [⟨S512x32, extractStridedSlice S512x32 ![0, 0] (xProd X Vm Zr Sc) slices_S512x204_S512x32_0_0⟩,
      ⟨S512x1, broadcastInDim S512x1 ![] bcast_S_S512x1 (constant (F := Ideal) S_ .f32 0x3F800000#32)⟩]
    concatenates_S512x32_S512x1_S512x33_d1

/-- Columns 32..203 of the product: [512, 172]. -/
def corrArr (X : FVec Ideal S512x4096 .f32) (Vm : FVec Ideal S32x4096 .f32) (Zr Sc : FVec Ideal S1x704512 .f32) :
    FVec Ideal S512x172 .f32 :=
  extractStridedSlice S512x172 ![0, 32] (xProd X Vm Zr Sc) slices_S512x204_S512x172_0_32

/-- U with the bias as a 33rd column: [11008, 33]. -/
def uArr (Um : FVec Ideal S11008x32 .f32) (Bs : FVec Ideal S11008 .f32) : FVec Ideal S11008x33 .f32 :=
  concatenate S11008x33 1 [⟨S11008x32, Um⟩, ⟨S11008x1, shapeCast S11008x1 Bs shapeCasts_S11008_S11008x1⟩]
    concatenates_S11008x32_S11008x1_S11008x33_d1

/-! ## The terms at an index -/

/-- Rows 0..31 of the stacked matrix are V's. -/
theorem stackedVZ_top (Vm : FVec Ideal S32x4096 .f32) (Zr Sc : FVec Ideal S1x704512 .f32) (l : Fin 32) (k : Fin 4096) :
    stackedVZ Vm Zr Sc (ix2 (⟨l.val, by have := l.isLt; omega⟩ : Fin 204) k) = Vm (ix2 l k) := by
  unfold stackedVZ
  exact concatenate_pair_apply_left (t := S204x4096) (s₁ := S32x4096) (s₂ := S172x4096) 0 Vm _ concatenates_S32x4096_S172x4096_S204x4096_d0 _ rfl (ix2 l k)
    (fun b => match b with | ⟨0, _⟩ => rfl | ⟨1, _⟩ => rfl)

/-- Row 32 + s of the stacked matrix is zero * scale at group row s: position (s, k) of [172, 4096] is flat
    position s * 4096 + k of the one row of 704512 words. -/
theorem stackedVZ_bot (Vm : FVec Ideal S32x4096 .f32) (Zr Sc : FVec Ideal S1x704512 .f32) (s : Fin 172) (k : Fin 4096) :
    stackedVZ Vm Zr Sc (ix2 (⟨32 + s.val, by have := s.isLt; omega⟩ : Fin 204) k)
      = Zr (ix2 (0 : Fin 1) (gcol s k)) * Sc (ix2 (0 : Fin 1) (gcol s k)) := by
  unfold stackedVZ
  refine (concatenate_pair_apply_right (t := S204x4096) (s₁ := S32x4096) (s₂ := S172x4096) 0 Vm _ concatenates_S32x4096_S172x4096_S204x4096_d0 _ rfl rfl (ix2 s k)
    (fun b hb => match b, hb with | ⟨0, _⟩, hb => absurd (Fin.ext rfl) hb | ⟨1, _⟩, _ => rfl)
    (by show s.val + 32 = 32 + s.val; omega)).trans ?_
  refine (shapeCast_apply (mulf Zr Sc : FVec Ideal S1x704512 .f32) shapeCasts_S1x704512_S172x4096 (ix2 s k)
    (ix2 (0 : Fin 1) (gcol s k)) ?_).trans rfl
  rw [Shape.rowMajor_val_two, Shape.rowMajor_val_two]
  show 0 * 704512 + (s.val * 4096 + k.val) = s.val * 4096 + k.val
  omega

/-- The transposed stacked matrix at (k, r) is the stacked matrix at (r, k). -/
theorem transpose_ix2 (Y : FVec Ideal S204x4096 .f32) (k : Fin 4096) (r : Fin 204) :
    transpose S4096x204 [1, 0] Y transposes_S204x4096_S4096x204_1_0 (ix2 k r) = Y (ix2 r k) :=
  transpose_apply [1, 0] Y transposes_S204x4096_S4096x204_1_0 (ix2 k r) (ix2 r k)
    (fun b => match b with | ⟨0, _⟩ => rfl | ⟨1, _⟩ => rfl)

theorem lhs_xProd_0 (i : S512x204.Idx) (q : dot_S512x4096_S4096x204_S512x204_1_0_0_1_n_n.contr.Idx) :
    (dot_S512x4096_S4096x204_S512x204_1_0_0_1_n_n.lhsIdx i q 0).val = (i 0).val := by
  unfold DotDims.lhsIdx
  rw [dif_neg (show ¬(0 : Fin S512x4096.rank) ∈ dot_S512x4096_S4096x204_S512x204_1_0_0_1_n_n.lhsBatch by decide), dif_pos (show (0 : Fin S512x4096.rank) ∈ dot_S512x4096_S4096x204_S512x204_1_0_0_1_n_n.lhsNonContracting by decide)]
  rfl
theorem lhs_xProd_1 (i : S512x204.Idx) (q : dot_S512x4096_S4096x204_S512x204_1_0_0_1_n_n.contr.Idx) :
    (dot_S512x4096_S4096x204_S512x204_1_0_0_1_n_n.lhsIdx i q 1).val = (q ⟨0, by decide⟩).val :=
  dot_S512x4096_S4096x204_S512x204_1_0_0_1_n_n.lhsIdx_val_of_single rfl i q
theorem rhs_xProd_0 (i : S512x204.Idx) (q : dot_S512x4096_S4096x204_S512x204_1_0_0_1_n_n.contr.Idx) :
    (dot_S512x4096_S4096x204_S512x204_1_0_0_1_n_n.rhsIdx i q 0).val = (q ⟨0, by decide⟩).val :=
  dot_S512x4096_S4096x204_S512x204_1_0_0_1_n_n.rhsIdx_val_of_single rfl i q
theorem rhs_xProd_1 (i : S512x204.Idx) (q : dot_S512x4096_S4096x204_S512x204_1_0_0_1_n_n.contr.Idx) :
    (dot_S512x4096_S4096x204_S512x204_1_0_0_1_n_n.rhsIdx i q 1).val = (i 1).val := by
  unfold DotDims.rhsIdx
  rw [dif_neg (show ¬(1 : Fin S4096x204.rank) ∈ dot_S512x4096_S4096x204_S512x204_1_0_0_1_n_n.rhsBatch by decide), dif_pos (show (1 : Fin S4096x204.rank) ∈ dot_S512x4096_S4096x204_S512x204_1_0_0_1_n_n.rhsNonContracting by decide)]
  rfl

/-- The host product at (p, r) is the sum over the 4096 input columns of x times the right operand. -/
theorem dot_ix2 (X : FVec Ideal S512x4096 .f32) (Y : FVec Ideal S4096x204 .f32) (p : Fin 512) (r : Fin 204) :
    Host.dotGeneral dot_S512x4096_S4096x204_S512x204_1_0_0_1_n_n (some .fp32) X Y (ix2 p r)
      = ∑ k : Fin 4096, X (ix2 p k) * Y (ix2 k r) := by
  simp only [Host.dotGeneral]
  rw [Ideal.dotGeneral_apply, ← Equiv.sum_comp (ValueIdx.contrEquiv1 dot_S512x4096_S4096x204_S512x204_1_0_0_1_n_n 4096 rfl rfl).symm]
  refine Finset.sum_congr rfl fun k _ => ?_
  have hk := ValueIdx.contrEquiv1_symm_val dot_S512x4096_S4096x204_S512x204_1_0_0_1_n_n 4096 rfl rfl k
  have el : dot_S512x4096_S4096x204_S512x204_1_0_0_1_n_n.lhsIdx (ix2 p r) ((ValueIdx.contrEquiv1 dot_S512x4096_S4096x204_S512x204_1_0_0_1_n_n 4096 rfl rfl).symm k) = ix2 p k := funext fun a => Fin.ext (by
    match a with
    | ⟨0, _⟩ => exact lhs_xProd_0 _ _
    | ⟨1, _⟩ => exact (lhs_xProd_1 _ _).trans hk)
  have er : dot_S512x4096_S4096x204_S512x204_1_0_0_1_n_n.rhsIdx (ix2 p r) ((ValueIdx.contrEquiv1 dot_S512x4096_S4096x204_S512x204_1_0_0_1_n_n 4096 rfl rfl).symm k) = ix2 k r := funext fun a => Fin.ext (by
    match a with
    | ⟨0, _⟩ => exact (rhs_xProd_0 _ _).trans hk
    | ⟨1, _⟩ => exact rhs_xProd_1 _ _)
  rw [el, er]

/-- The product at (p, r): x's row p against row r of the stacked matrix. -/
theorem xProd_apply (X : FVec Ideal S512x4096 .f32) (Vm : FVec Ideal S32x4096 .f32) (Zr Sc : FVec Ideal S1x704512 .f32)
    (p : Fin 512) (r : Fin 204) :
    xProd X Vm Zr Sc (ix2 p r) = ∑ k : Fin 4096, X (ix2 p k) * stackedVZ Vm Zr Sc (ix2 r k) := by
  unfold xProd
  refine (dot_ix2 X _ p r).trans (Finset.sum_congr rfl fun k _ => ?_)
  exact congrArg (X (ix2 p k) * ·) (transpose_ix2 (stackedVZ Vm Zr Sc) k r)

/-- [x V^T | 1] at (p, l): for l < 32 the product's column l, x's row p against V's row l; column 32 is one. -/
theorem xvtArr_apply (X : FVec Ideal S512x4096 .f32) (Vm : FVec Ideal S32x4096 .f32) (Zr Sc : FVec Ideal S1x704512 .f32)
    (p : Fin 512) (l : Fin 33) : xvtArr X Vm Zr Sc (ix2 p l) = xvt X Vm p l := by
  unfold xvtArr xvt
  by_cases h : l.val < 32
  · rw [dif_pos h]
    refine (concatenate_pair_apply_left (t := S512x33) (s₁ := S512x32) (s₂ := S512x1) 1 _ _
      concatenates_S512x32_S512x1_S512x33_d1 (ix2 p l) rfl
      (ix2 p (⟨l.val, h⟩ : Fin 32)) (fun b => match b with | ⟨0, _⟩ => rfl | ⟨1, _⟩ => rfl)).trans ?_
    refine (extractStridedSlice_apply ![0, 0] (xProd X Vm Zr Sc) slices_S512x204_S512x32_0_0 (ix2 p (⟨l.val, h⟩ : Fin 32))
      (ix2 p (⟨l.val, by omega⟩ : Fin 204))
      (fun a => match a with
        | ⟨0, _⟩ => by show p.val = 0 + p.val; omega
        | ⟨1, _⟩ => by show l.val = 0 + l.val; omega)).trans ?_
    refine (xProd_apply X Vm Zr Sc p _).trans (Finset.sum_congr rfl fun k _ => ?_)
    exact congrArg (X (ix2 p k) * ·) (stackedVZ_top Vm Zr Sc ⟨l.val, h⟩ k)
  · rw [dif_neg h]
    refine (concatenate_pair_apply_right (t := S512x33) (s₁ := S512x32) (s₂ := S512x1) 1 _ _
      concatenates_S512x32_S512x1_S512x33_d1 (ix2 p l) rfl rfl (ix2 p (0 : Fin 1))
      (fun b hb => match b, hb with | ⟨0, _⟩, _ => rfl | ⟨1, _⟩, hb => absurd (Fin.ext rfl) hb)
      (by show 0 + 32 = l.val; have := l.isLt; omega)).trans ?_
    refine (broadcastInDim_apply ![] bcast_S_S512x1 (constant (F := Ideal) S_ .f32 0x3F800000#32) (ix2 p (0 : Fin 1)) ix0
      (fun a => a.elim0)).trans ?_
    exact Ideal.ofBits_one_f32

/-- The hoisted zero-point term at (p, s): the product's column 32 + s, x's row p against zero * scale at group row s. -/
theorem corrArr_apply (X : FVec Ideal S512x4096 .f32) (Vm : FVec Ideal S32x4096 .f32) (Zr Sc : FVec Ideal S1x704512 .f32)
    (p : Fin 512) (s : Fin 172) : corrArr X Vm Zr Sc (ix2 p s) = corr X Zr Sc p s := by
  unfold corrArr corr
  refine (extractStridedSlice_apply ![0, 32] (xProd X Vm Zr Sc) slices_S512x204_S512x172_0_32 (ix2 p s)
    (ix2 p (⟨32 + s.val, by have := s.isLt; omega⟩ : Fin 204))
    (fun a => match a with
      | ⟨0, _⟩ => by show p.val = 0 + p.val; omega
      | ⟨1, _⟩ => by show 32 + s.val = 32 + s.val; rfl)).trans ?_
  refine (xProd_apply X Vm Zr Sc p _).trans (Finset.sum_congr rfl fun k _ => ?_)
  exact congrArg (X (ix2 p k) * ·) (stackedVZ_bot Vm Zr Sc s k)

/-- [U | bias] at (q, l): U's column l for l < 32; column 32 is the bias, position (q, 0) of [11008, 1] being
    position q of [11008]. -/
theorem uArr_apply (Um : FVec Ideal S11008x32 .f32) (Bs : FVec Ideal S11008 .f32) (q : Fin 11008) (l : Fin 33) :
    uArr Um Bs (ix2 q l) = uaug Um Bs q l := by
  unfold uArr uaug
  by_cases h : l.val < 32
  · rw [dif_pos h]
    exact concatenate_pair_apply_left (t := S11008x33) (s₁ := S11008x32) (s₂ := S11008x1) 1 Um _
      concatenates_S11008x32_S11008x1_S11008x33_d1 (ix2 q l) rfl
      (ix2 q (⟨l.val, h⟩ : Fin 32)) (fun b => match b with | ⟨0, _⟩ => rfl | ⟨1, _⟩ => rfl)
  · rw [dif_neg h]
    refine (concatenate_pair_apply_right (t := S11008x33) (s₁ := S11008x32) (s₂ := S11008x1) 1 Um _
      concatenates_S11008x32_S11008x1_S11008x33_d1 (ix2 q l) rfl rfl (ix2 q (0 : Fin 1))
      (fun b hb => match b, hb with | ⟨0, _⟩, _ => rfl | ⟨1, _⟩, hb => absurd (Fin.ext rfl) hb)
      (by show 0 + 32 = l.val; have := l.isLt; omega)).trans ?_
    refine shapeCast_apply Bs shapeCasts_S11008_S11008x1 (ix2 q (0 : Fin 1)) (ix1 q) ?_
    rw [Shape.rowMajor_val_one, Shape.rowMajor_val_two]
    show q.val = q.val * 1 + 0
    omega

/-! ## The three arrays as the region finds them -/

theorem V_main_v12 (c : Dev nD) :
    (V m c main_v12 : S11008x33.Idx → EReal) = uArr (argU m c) (argB m c) := by
  dsimp only [Gen.V, Gen.hostOps0]; after_results; rfl

theorem V_main_v10 (c : Dev nD) :
    (V m c main_v10 : S512x33.Idx → EReal) = xvtArr (argX m c) (argV m c) (argZr m c) (argSc m c) := by
  dsimp only [Gen.V, Gen.hostOps0]; after_results; rfl

theorem V_main_v8 (c : Dev nD) :
    (V m c main_v8 : S512x172.Idx → EReal) = corrArr (argX m c) (argV m c) (argZr m c) (argSc m c) := by
  dsimp only [Gen.V, Gen.hostOps0]; after_results; rfl

/-! ## From a block to its array: the three windows hold their whole array -/

/-- Windows 3, 4 and 5 sit at block (0, 0) at every grid point. -/
theorem whole_idx : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Block element y of window 3 is element 0 * 512 + y, 0 * 33 + y of its array. -/
theorem xvtBlk_arr (c : Dev nD) (t : Fin cfg0.N) (y : S512x33.Idx) :
    xvtBlk m c t y = V m c main_v10 y := by
  show V m c main_v10 (((cfg0.win 3).blk t).view.emb y) = V m c main_v10 y
  obtain ⟨e0, e1, -, -, -, -⟩ := whole_idx t
  refine congrArg (V m c main_v10) (funext fun a => Fin.ext ?_)
  match a with
  | ⟨0, _⟩ => show win0_3.index t (0 : Fin 2) * 512 + 1 * (y 0).val = (y 0).val; omega
  | ⟨1, _⟩ => show win0_3.index t (1 : Fin 2) * 33 + 1 * (y 1).val = (y 1).val; omega

/-- Block element y of window 4 is element y of its array. -/
theorem uBlk_arr (c : Dev nD) (t : Fin cfg0.N) (y : S11008x33.Idx) :
    uBlk m c t y = V m c main_v12 y := by
  show V m c main_v12 (((cfg0.win 4).blk t).view.emb y) = V m c main_v12 y
  obtain ⟨-, -, e0, e1, -, -⟩ := whole_idx t
  refine congrArg (V m c main_v12) (funext fun a => Fin.ext ?_)
  match a with
  | ⟨0, _⟩ => show win0_4.index t (0 : Fin 2) * 11008 + 1 * (y 0).val = (y 0).val; omega
  | ⟨1, _⟩ => show win0_4.index t (1 : Fin 2) * 33 + 1 * (y 1).val = (y 1).val; omega

/-- Block element y of window 5 is element y of its array. -/
theorem corrBlk_arr (c : Dev nD) (t : Fin cfg0.N) (y : S512x172.Idx) :
    corrBlk m c t y = V m c main_v8 y := by
  show V m c main_v8 (((cfg0.win 5).blk t).view.emb y) = V m c main_v8 y
  obtain ⟨-, -, -, -, e0, e1⟩ := whole_idx t
  refine congrArg (V m c main_v8) (funext fun a => Fin.ext ?_)
  match a with
  | ⟨0, _⟩ => show win0_5.index t (0 : Fin 2) * 512 + 1 * (y 0).val = (y 0).val; omega
  | ⟨1, _⟩ => show win0_5.index t (1 : Fin 2) * 172 + 1 * (y 1).val = (y 1).val; omega

end Whole

/-! ## The three blocks at an element -/

theorem xvtBlk_apply (c : Dev nD) (t : Fin cfg0.N) (p : Fin 512) (l : Fin 33) :
    xvtBlk m c t (ix2 p l) = xvt (argX m c) (argV m c) p l :=
  (Whole.xvtBlk_arr m c t (ix2 p l)).trans
    ((congrFun (Whole.V_main_v10 m c) (ix2 p l)).trans (Whole.xvtArr_apply (argX m c) (argV m c) (argZr m c) (argSc m c) p l))

theorem uBlk_apply (c : Dev nD) (t : Fin cfg0.N) (q : Fin 11008) (l : Fin 33) :
    uBlk m c t (ix2 q l) = uaug (argU m c) (argB m c) q l :=
  (Whole.uBlk_arr m c t (ix2 q l)).trans
    ((congrFun (Whole.V_main_v12 m c) (ix2 q l)).trans (Whole.uArr_apply (argU m c) (argB m c) q l))

theorem corrBlk_apply (c : Dev nD) (t : Fin cfg0.N) (p : Fin 512) (s : Fin 172) :
    corrBlk m c t (ix2 p s) = corr (argX m c) (argZr m c) (argSc m c) p s :=
  (Whole.corrBlk_arr m c t (ix2 p s)).trans
    ((congrFun (Whole.V_main_v8 m c) (ix2 p s)).trans (Whole.corrArr_apply (argX m c) (argV m c) (argZr m c) (argSc m c) p s))

end Cert.KernelIdeal.Blocks

end
-- ==== Proof.KernelValue.lean ====
/-
  The idealized kernel's result array read at one element: the fold over the sixteen grid points — zero, then a
  tile's partial product added at each point, the epilogue at the last — is the kernel's formula `kerVal` of the
  argument arrays.
-/
import proofs.«426867_j79929341379025_3_alg».proof.Proof.Gen.KernelIdeal.Value
import proofs.«426867_j79929341379025_3_alg».proof.Proof.Payloads
import proofs.«426867_j79929341379025_3_alg».proof.Proof.BlocksTile
import proofs.«426867_j79929341379025_3_alg».proof.Proof.BlocksWhole

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.Bridge Cert.KernelIdeal.Blocks Cert.KernelIdeal.Payloads
open Cert.KernelIdeal.Value (reset6 step6 G6 run6Of loc6Of)

variable (m : (ℓ : Loc nD τ sig) → Buf (Elt Ideal) ℓ)

/-- At grid point `t` the body's partial product for output (p, q), over the point's three tiles, is column tile
    `t` of the kernel's formula: each tile element is the argument array at input column 256 t + j. -/
theorem tile_eq (c : Dev nD) (t : Fin cfg0.N) (p : Fin 512) (q : Fin 11008) :
    (∑ j : Fin 256, xBlk m c t (ix2 p j) * (nibBlk (wqBlk m c t) (qr q) (qs q) j * scBlk m c t (ix3 (0 : Fin 1) (qs q) j)))
      = kerTile (argX m c) (argW m c) (argSc m c) p q t.val := by
  unfold kerTile nibBlk nibK
  refine Finset.sum_congr rfl fun j _ => ?_
  rw [xBlk_apply, wqBlk_apply, scBlk_apply]

/-- The addend of grid point `n` at an output index: column tile `n` of the kernel's formula. -/
def addend (c : Dev nD) (n : ℕ) (i : S512x11008.Idx) : EReal :=
  kerTile (argX m c) (argW m c) (argSc m c) ⟨(i 0).val, idx2_lt0 i⟩ ⟨(i 1).val, idx2_lt1 i⟩ n

theorem addend_ix2 (c : Dev nD) (n : ℕ) (p : Fin 512) (q : Fin 11008) :
    addend m c n (ix2 p q) = kerTile (argX m c) (argW m c) (argSc m c) p q n := rfl

/-- The first point's value: zero plus tile 0. -/
theorem reset_apply (c : Dev nD) (h : 0 < cfg0.N) (i : S512x11008.Idx) :
    reset6 m c 0 h i = (fun _ => (0 : EReal)) i + addend m c 0 i := by
  obtain ⟨p, q, rfl⟩ : ∃ (p : Fin 512) (q : Fin 11008), i = ix2 p q := ⟨i 0, i 1, eq_ix2 i⟩
  unfold reset6
  refine (pay2_apply (wqBlk m c ⟨0, h⟩) (scBlk m c ⟨0, h⟩) (xBlk m c ⟨0, h⟩) (k0_pay1 (F := Ideal)) p q).trans ?_
  rw [pay1_apply, tile_eq m c ⟨0, h⟩ p q, addend_ix2]

/-- Points 1..14 add their tile to what the point before left. -/
theorem step_apply (c : Dev nD) (n : ℕ) (h : n < cfg0.N) (acc : S512x11008.Idx → EReal) (i : S512x11008.Idx)
    (h0 : 0 < n) (h1 : n ≤ 0 + 14) : step6 m c n h acc i = acc i + addend m c n i := by
  obtain ⟨p, q, rfl⟩ : ∃ (p : Fin 512) (q : Fin 11008), i = ix2 p q := ⟨i 0, i 1, eq_ix2 i⟩
  unfold step6
  rw [if_pos (by omega)]
  refine (pay2_apply (wqBlk m c ⟨n, h⟩) (scBlk m c ⟨n, h⟩) (xBlk m c ⟨n, h⟩) acc p q).trans ?_
  rw [tile_eq m c ⟨n, h⟩ p q, addend_ix2]

/-- After point 14 the buffer holds zero plus tiles 0..14. -/
theorem acc14_apply (c : Dev nD) (h : 0 + 14 < cfg0.N) (p : Fin 512) (q : Fin 11008) :
    Pipeline.accAt (reset6 m c) (step6 m c) 0 14 h (ix2 p q)
      = 0 + ∑ n ∈ Finset.range 15, kerTile (argX m c) (argW m c) (argSc m c) p q n := by
  have key := Pipeline.accAt_add_apply (ι := S512x11008.Idx) (β := EReal) (reset6 m c) (step6 m c) (fun _ => (0 : EReal))
    (addend m c) 0 14 (fun h i => reset_apply m c h i) (fun n h acc i h0 h1 => step_apply m c n h acc i h0 h1)
    14 (le_refl _) h (ix2 p q)
  rw [key]
  refine congrArg (fun z => (0 : EReal) + z) (Finset.sum_congr rfl fun n _ => ?_)
  rw [Nat.zero_add, addend_ix2]

/-- The last point: tile 15 on top of point 14's contents, then the epilogue's term. -/
theorem last_apply (c : Dev nD) (h : 0 + (14 + 1) < cfg0.N) (acc : S512x11008.Idx → EReal) (p : Fin 512) (q : Fin 11008) :
    step6 m c (0 + (14 + 1)) h acc (ix2 p q)
      = (acc (ix2 p q) + kerTile (argX m c) (argW m c) (argSc m c) p q 15)
        + ((∑ l : Fin 33, xvt (argX m c) (argV m c) p l * uaug (argU m c) (argB m c) q l)
            - corr (argX m c) (argZr m c) (argSc m c) p (qs q)) := by
  unfold step6
  rw [if_neg (by decide), if_pos (by decide)]
  refine (pay3_apply (xvtBlk m c ⟨0 + (14 + 1), h⟩) (uBlk m c ⟨0 + (14 + 1), h⟩) (corrBlk m c ⟨0 + (14 + 1), h⟩) _ p q).trans ?_
  rw [pay2_apply (wqBlk m c ⟨0 + (14 + 1), h⟩) (scBlk m c ⟨0 + (14 + 1), h⟩) (xBlk m c ⟨0 + (14 + 1), h⟩) acc p q,
    tile_eq m c ⟨0 + (14 + 1), h⟩ p q, corrBlk_apply]
  have hs : (∑ l : Fin 33, xvtBlk m c ⟨0 + (14 + 1), h⟩ (ix2 p l) * uBlk m c ⟨0 + (14 + 1), h⟩ (ix2 q l))
      = ∑ l : Fin 33, xvt (argX m c) (argV m c) p l * uaug (argU m c) (argB m c) q l :=
    Finset.sum_congr rfl fun l _ => by rw [xvtBlk_apply, uBlk_apply]
  rw [hs]

/-- The kernel's result at (p, q) is its formula of the argument arrays. -/
theorem G6_apply (c : Dev nD) (p : Fin 512) (q : Fin 11008) :
    Cert.KernelIdeal.Value.G6 (F := Ideal) m c (ix2 p q)
      = kerVal (argX m c) (argW m c) (argSc m c) (argZr m c) (argU m c) (argV m c) (argB m c) p q := by
  have hp : p.val < 512 := p.isLt
  have hq : q.val < 11008 := q.isLt
  have hN : cfg0.N = 16 := N_0
  have hr : run6Of (ix2 p q) = 0 := by
    show 1 * (p.val / 512 - 0) + 1 * (q.val / 11008 - 0) = 0
    omega
  have hl : loc6Of (ix2 p q) = ix2 p q := by
    funext a; apply Fin.ext
    match a with
    | ⟨0, _⟩ => show p.val % 512 = p.val; omega
    | ⟨1, _⟩ => show q.val % 11008 = q.val; omega
  have e : ∀ (b j : ℕ) (h : b + j < cfg0.N) (b' j' : ℕ) (h' : b' + j' < cfg0.N), b = b' → j = j' →
      Pipeline.accAt (reset6 m c) (step6 m c) b j h = Pipeline.accAt (reset6 m c) (step6 m c) b' j' h' := by
    intro b j h b' j' h' hb hj; subst hb; subst hj; rfl
  have h15 : 0 + (14 + 1) < cfg0.N := by rw [hN]; decide
  unfold G6
  rw [dif_pos (by rw [hr, hN]; decide), hl,
    e (16 * run6Of (ix2 p q)) 15 _ 0 (14 + 1) h15 (by rw [hr]) rfl,
    Pipeline.accAt_succ, last_apply, acc14_apply]
  rfl

end Cert.KernelIdeal.KernelValue

end
-- ==== Proof.RefValue.lean ====
/-
  The reference's result read at one output element (p, q), q = 172 r + s: the sum over the 4096 input columns
  of x times the effective weight — the dequantised nibble ((nibble - zero) * scale, the [64, 704512] array
  re-read as [11008, 4096]: row q, column c is group member r at flat position s * 4096 + c) plus the low-rank
  term U V — plus the bias.
-/
import proofs.«426867_j79929341379025_3_alg».proof.Proof.Gen.ReferenceIdeal.Read
import proofs.«426867_j79929341379025_3_alg».proof.Proof.Spec

noncomputable section

open scoped BigOperators

namespace Cert.ReferenceIdeal.RefValue

open Cert.ReferenceIdeal Cert.ReferenceIdeal.Gen Idealize.ShloMosaic Idealize.ShloMosaic.ValueIdx Cert.Bridge

/-- The joined nibble array at group member `r`, packed position `g`: members 0..31 come from the first piece (the
    high nibbles) at the same row, members 32..63 from the second piece (the low nibbles) at row r - 32; both rows are
    r mod 32. -/
theorem v8_apply (x1 : (⟨S32x704512, .i32⟩ : BufTy).Contents (Elt Ideal)) (r : Fin 64) (g : Fin 704512) :
    Cert.ReferenceIdeal.Read.val_main_v8 (F := Ideal) x1 (ix2 r g) = nibR x1 r g := by
  unfold Cert.ReferenceIdeal.Read.val_main_v8 nibR
  by_cases h : r.val < 32
  · rw [if_pos h]
    refine (concatenate_pair_apply_left (t := S64x704512) (s₁ := S32x704512) (s₂ := S32x704512) _ _ _ _ (ix2 r g) rfl (ix2 (rowOf r) g) ?_).trans ?_
    · intro b
      match b with
      | ⟨0, _⟩ => show r.val % 32 = r.val; omega
      | ⟨1, _⟩ => rfl
    · rw [Read.val_main_v4_apply, Read.val_main_v3_apply, Read.val_main_v1_apply, Read.val_main_v0_apply,
        Read.val_main_v2_apply, Read.val_main_c_apply, Read.val_main_c_0_apply]
      rfl
  · rw [if_neg h]
    have hr := r.isLt
    refine (concatenate_pair_apply_right (t := S64x704512) (s₁ := S32x704512) (s₂ := S32x704512) _ _ _ _ (ix2 r g) rfl rfl (ix2 (rowOf r) g) ?_ ?_).trans ?_
    · intro b
      match b with
      | ⟨0, _⟩ => exact fun hne => absurd rfl hne
      | ⟨1, _⟩ => exact fun _ => rfl
    · show r.val % 32 + 32 = r.val; omega
    · rw [Read.val_main_v7_apply, Read.val_main_v6_apply, Read.val_main_v5_apply, Read.val_main_c_1_apply]
      rfl

/-- The dequantised array before the reshape, at group member `r`, packed position `g`: (nibble - zero) * scale,
    zero and scale read from their one row at the same position. -/
theorem v12_apply (x1 : (⟨S32x704512, .i32⟩ : BufTy).Contents (Elt Ideal))
    (x2 x3 : (⟨S1x704512, .f32⟩ : BufTy).Contents (Elt Ideal)) (r : Fin 64) (g : Fin 704512) :
    Cert.ReferenceIdeal.Read.val_main_v12 (F := Ideal) x1 x2 x3 (ix2 r g)
      = (nibR x1 r g - x3 (ix2 (0 : Fin 1) g)) * x2 (ix2 (0 : Fin 1) g) := by
  have e9 : Read.idx_main_v9 (ix2 r g) = ix2 (0 : Fin 1) g := funext fun a => by
    match a with
    | ⟨0, _⟩ => rfl
    | ⟨1, _⟩ => rfl
  have e11 : Read.idx_main_v11 (ix2 r g) = ix2 (0 : Fin 1) g := funext fun a => by
    match a with
    | ⟨0, _⟩ => rfl
    | ⟨1, _⟩ => rfl
  rw [Read.val_main_v12_apply, Read.val_main_v10_apply, Read.val_main_v11_apply, Read.val_main_v9_apply, v8_apply, e9, e11]
  rfl

/-- The reshape [64, 704512] → [11008, 4096]: row q = 172 r + s, column c is group member r at position s * 4096 + c,
    because 704512 = 172 * 4096. -/
theorem v13_apply (x1 : (⟨S32x704512, .i32⟩ : BufTy).Contents (Elt Ideal))
    (x2 x3 : (⟨S1x704512, .f32⟩ : BufTy).Contents (Elt Ideal)) (q : Fin 11008) (c : Fin 4096) :
    Cert.ReferenceIdeal.Read.val_main_v13 (F := Ideal) x1 x2 x3 (ix2 q c)
      = Cert.ReferenceIdeal.Read.val_main_v12 (F := Ideal) x1 x2 x3 (ix2 (qr q) (gcol (qs q) c)) := by
  rw [Read.val_main_v13_apply]
  refine congrArg _ (funext fun a => Fin.ext ?_)
  have hq := q.isLt
  have hc := c.isLt
  match a with
  | ⟨0, _⟩ => show (q.val * 4096 + c.val) / 704512 = q.val / 172; omega
  | ⟨1, _⟩ => show (q.val * 4096 + c.val) % 704512 = q.val % 172 * 4096 + c.val; omega

/-- The low-rank product U V at (q, c), a sum over the 32 ranks. -/
theorem v14_apply (x4 : (⟨S11008x32, .f32⟩ : BufTy).Contents (Elt Ideal)) (x5 : (⟨S32x4096, .f32⟩ : BufTy).Contents (Elt Ideal))
    (q : Fin 11008) (c : Fin 4096) :
    Cert.ReferenceIdeal.Read.val_main_v14 (F := Ideal) x4 x5 (ix2 q c) = ∑ l : Fin 32, x4 (ix2 q l) * x5 (ix2 l c) := by
  rw [Read.val_main_v14_apply]
  refine Finset.sum_congr rfl fun l _ => ?_
  have el : Read.lidx_main_v14 (ix2 q c) l = ix2 q l := funext fun a => by
    match a with
    | ⟨0, _⟩ => rfl
    | ⟨1, _⟩ => rfl
  have er : Read.ridx_main_v14 (ix2 q c) l = ix2 l c := funext fun a => by
    match a with
    | ⟨0, _⟩ => rfl
    | ⟨1, _⟩ => rfl
  rw [el, er]

theorem ref_apply (x0 : (⟨S512x4096, .f32⟩ : BufTy).Contents (Elt Ideal)) (x1 : (⟨S32x704512, .i32⟩ : BufTy).Contents (Elt Ideal))
    (x2 x3 : (⟨S1x704512, .f32⟩ : BufTy).Contents (Elt Ideal)) (x4 : (⟨S11008x32, .f32⟩ : BufTy).Contents (Elt Ideal))
    (x5 : (⟨S32x4096, .f32⟩ : BufTy).Contents (Elt Ideal)) (x6 : (⟨S11008, .f32⟩ : BufTy).Contents (Elt Ideal))
    (p : Fin 512) (q : Fin 11008) :
    Cert.ReferenceIdeal.Read.val_main_v20 (F := Ideal) x0 x1 x2 x3 x4 x5 x6 (ix2 p q) = refVal x0 x1 x2 x3 x4 x5 x6 p q := by
  rw [Read.val_main_v20_apply, Read.val_main_v17_apply, Read.val_main_v19_apply, Read.val_main_v18_apply]
  unfold refVal
  refine congrArg₂ (fun a b : EReal => a + b) (Finset.sum_congr rfl fun c _ => ?_) ?_
  · have el : Read.lidx_main_v17 (ix2 p q) c = ix2 p c := funext fun a => by
      match a with
      | ⟨0, _⟩ => rfl
      | ⟨1, _⟩ => rfl
    have er : Read.ridx_main_v17 (ix2 p q) c = ix2 c q := funext fun a => by
      match a with
      | ⟨0, _⟩ => rfl
      | ⟨1, _⟩ => rfl
    have e16 : Read.idx_main_v16 (ix2 c q) = ix2 q c := funext fun a => by
      match a with
      | ⟨0, _⟩ => rfl
      | ⟨1, _⟩ => rfl
    rw [el, er, Read.val_main_v16_apply, e16, Read.val_main_v15_apply, v13_apply, v12_apply, v14_apply]
    rfl
  · refine congrArg x6 (funext fun a => ?_)
    match a with
    | ⟨0, _⟩ => rfl

end Cert.ReferenceIdeal.RefValue

end
-- ==== Proof.Finite.lean ====
/-
  What the precondition says: every entry of each of the six float arguments is a real number
  (|x| < +inf on the extended reals leaves exactly the reals).
-/
import proofs.«426867_j79929341379025_3_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

/-- The word 0x7F800000 (sign 0, exponent all ones, fraction 0) denotes +inf. -/
theorem inf_bits : Ideal.ofBits .f32 0x7F800000#32 = (⊤ : EReal) := by
  simp [Ideal.ofBits, Ideal.ieee]

/-- The element fact: |x| < +inf, with |x| = max x (-x), holds on the extended reals only at a real;
    at either infinity the maximum is +inf itself. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have hlt : max x (-x) < (⊤ : EReal) := by
    by_contra hn
    have h0 : FloatOps.cmpf .olt (FloatOps.hostAbsf x) (FloatOps.ofBits (F := Ideal) .f32 0x7F800000#32) = 0#1 := by
      show Ideal.cmp .olt (max x (-x)) (Ideal.ofBits .f32 0x7F800000#32) = 0#1
      rw [inf_bits]
      simp [Ideal.cmp, hn]
    rw [h0] at h
    exact absurd h (by decide)
  induction x using EReal.rec with
  | bot => simp at hlt
  | top => simp at hlt
  | coe r => exact ⟨r, rfl⟩

/-- A rank-0 array has one index. -/
instance : Subsingleton S_.Idx := ⟨fun a b => funext fun d => d.elim0⟩

/-- One block of the precondition: the conjunction over all entries of |x| < +inf being 1 makes every entry a real. -/
theorem all_real {s : Shape} {axes : List (Fin s.rank)} (x : FVec Ideal s .f32)
    (hb : S_.BroadcastsInDim s (![] : Fin 0 → Fin s.rank)) (hR : s.ReducesTo axes S_) (hu : 0 < S_.numel)
    (e : Host.reduce IntOp.andi
        (cmpf .olt (Host.absf x) (broadcastInDim s ![] hb (constant S_ .f32 0x7F800000#32)))
        (constantI S_ 1 1#1) hR hu ix0 = 1#1) (i : s.Idx) : ∃ r : ℝ, x i = (r : EReal) :=
  real_of_abs_lt_inf (x i) (Host.reduce_andi_all _ _ hR hu ix0 e i)

theorem finite_of_pre [Cert.Pre_finite_inputs.Facts] (x0 : FVec Ideal S512x4096 .f32) (x1 : IVec S32x704512 32)
    (x2 x3 : FVec Ideal S1x704512 .f32) (x4 : FVec Ideal S11008x32 .f32) (x5 : FVec Ideal S32x4096 .f32)
    (x6 : FVec Ideal S11008 .f32)
    (h : Cert.Pre_finite_inputs.fn (F := Ideal) x0 x1 x2 x3 x4 x5 x6 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal)) := by
  have h0 := congrFun h ValueIdx.ix0
  dsimp only [fn, fn_part1] at h0
  -- the six blocks are joined by five conjunctions of one-bit words, nested to the left
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real x0 _ _ _ e0, all_real x2 _ _ _ e2, all_real x3 _ _ _ e3, all_real x4 _ _ _ e4,
    all_real x5 _ _ _ e5, all_real x6 _ _ _ e6⟩

end Cert.Pre_finite_inputs.Finite

end
-- ==== Proof.RealSum.lean ====
/-
  Sums of real numbers read as extended reals: the coercion commutes with finite sums.
-/
import Mathlib.Data.EReal.Basic
import Mathlib.Algebra.BigOperators.Group.Finset.Basic

namespace Cert.Bridge

open scoped BigOperators

/-- The coercion ℝ → EReal commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Bridge
-- ==== Proof.Algebra.lean ====
/-
  On finite inputs the kernel's formula and the reference's are one real number: the two nibble extractions
  agree on every 32-bit word, the sixteen tiles' sums are the sum over all 4096 columns, and
    sum_c x (n s) + (sum_l (sum_c x V_l) U_l + b - sum_c x (z s)) = sum_c x ((n - z) s + sum_l U_l V_l) + b
  by distributivity in the reals.
-/
import proofs.«426867_j79929341379025_3_alg».proof.Proof.Spec
import proofs.«426867_j79929341379025_3_alg».proof.Proof.RealSum
import Mathlib.Tactic.IntervalCases
import Mathlib.Tactic.Ring
import Mathlib.Tactic.Choose
import Mathlib.Data.Real.Basic
import Mathlib.Data.Fintype.BigOperators
import Mathlib.Algebra.BigOperators.Fin
import Mathlib.Algebra.BigOperators.Ring.Finset

noncomputable section

open scoped BigOperators

namespace Cert.Bridge

open Idealize.ShloMosaic Idealize.ShloMosaic.ValueIdx

/-! ## The two nibble extractions agree on every word -/

/-- High nibble. Bit i of the kernel's word is bit 4 + i of (w and 255), which is bit 4 + i of w for i < 4 and
    clear above (255 has no bit from 8 up, so also no sign bit to shift in); bit i of the reference's word is bit
    4 + i of w (or its sign, from bit 28 up) masked by bit i of 15, which is set exactly for i < 4. -/
theorem alg_hiK_eq_hiR (w : BitVec 32) : hiK w = hiR w := by
  unfold hiK hiR IntOp.shrsi IntOp.andi
  have h4 : (4#32).toNat < 32 := by decide
  rw [if_pos h4, if_pos h4]
  apply BitVec.eq_of_getLsbD_eq
  intro i hi
  simp only [BitVec.sshiftRight']
  have e4 : (4#32).toNat = 4 := rfl
  have hm : (255#32).msb = false := by decide
  rw [e4, BitVec.getLsbD_and, BitVec.getLsbD_sshiftRight, BitVec.getLsbD_sshiftRight, BitVec.getLsbD_and,
    BitVec.msb_and, hm, Bool.and_false]
  interval_cases i <;> simp

/-- Low nibble: 15 = 255 and 15, so masking by 255 first changes nothing. -/
theorem alg_loK_eq_loR (w : BitVec 32) : loK w = loR w := by
  unfold loK loR IntOp.andi
  rw [BitVec.and_assoc]
  congr 1

theorem alg_nibK_eq_nibR (Wq : SW.Idx → BitVec 32) (r : Fin 64) (g : Fin 704512) : nibK Wq r g = nibR Wq r g := by
  unfold nibK nibR
  rw [alg_hiK_eq_hiR, alg_loK_eq_loR]

/-! ## Sixteen tiles of 256 columns are the 4096 columns -/

/-- (n, j) ↦ 256 n + j is a bijection from sixteen tiles of 256 columns onto the 4096 columns. -/
theorem alg_tcol_bijective : Function.Bijective (fun x : Fin 16 × Fin 256 => tcol x.1.val x.2) := by
  constructor
  · rintro ⟨⟨n, hn⟩, ⟨j, hj⟩⟩ ⟨⟨n', hn'⟩, ⟨j', hj'⟩⟩ h
    have h' : (256 * n + j) % 4096 = (256 * n' + j') % 4096 := congrArg Fin.val h
    have hnj : n = n' ∧ j = j' := by omega
    obtain ⟨rfl, rfl⟩ := hnj
    rfl
  · intro c
    have hc := c.isLt
    refine ⟨(⟨c.val / 256, by omega⟩, ⟨c.val % 256, Nat.mod_lt _ (by decide)⟩), ?_⟩
    apply Fin.ext
    show (256 * (c.val / 256) + c.val % 256) % 4096 = c.val
    omega

/-- Zero, plus tiles 0..14 in order, plus tile 15, is the sum over all columns. -/
theorem alg_tiles_sum {M : Type*} [AddCommMonoid M] (f : Fin 4096 → M) :
    (0 + ∑ n ∈ Finset.range 15, ∑ j : Fin 256, f (tcol n j)) + ∑ j : Fin 256, f (tcol 15 j) = ∑ c : Fin 4096, f c := by
  have h16 : ∑ n ∈ Finset.range 16, (∑ j : Fin 256, f (tcol n j))
      = (∑ n ∈ Finset.range 15, ∑ j : Fin 256, f (tcol n j)) + ∑ j : Fin 256, f (tcol 15 j) :=
    Finset.sum_range_succ (fun n => ∑ j : Fin 256, f (tcol n j)) 15
  have hfin : ∑ n ∈ Finset.range 16, (∑ j : Fin 256, f (tcol n j)) = ∑ i : Fin 16, ∑ j : Fin 256, f (tcol i.val j) :=
    (Fin.sum_univ_eq_sum_range (fun n => ∑ j : Fin 256, f (tcol n j)) 16).symm
  rw [zero_add, ← h16, hfin, ← Fintype.sum_prod_type' (fun (n : Fin 16) (j : Fin 256) => f (tcol n.val j))]
  exact Fintype.sum_bijective _ alg_tcol_bijective _ _ (fun _ => rfl)

/-! ## The 33-column product is the 32-column low-rank product plus the bias -/

theorem alg_lowrank_split (X : SX.Idx → EReal) (Um : SU.Idx → EReal) (Vm : SV.Idx → EReal) (Bs : SB.Idx → EReal)
    (p : Fin 512) (q : Fin 11008) :
    ∑ l : Fin 33, xvt X Vm p l * uaug Um Bs q l
      = (∑ l : Fin 32, (∑ c : Fin 4096, X (ix2 p c) * Vm (ix2 l c)) * Um (ix2 q l)) + Bs (ix1 q) := by
  rw [Fin.sum_univ_castSucc]
  refine congrArg₂ (· + ·) (Finset.sum_congr rfl fun l _ => ?_) ?_
  · have hl : (Fin.castSucc l).val < 32 := l.isLt
    unfold xvt uaug
    rw [dif_pos hl, dif_pos hl]
    rfl
  · have hl : ¬ (Fin.last 32).val < 32 := by simp
    unfold xvt uaug
    rw [dif_neg hl, dif_neg hl, one_mul]

/-- The kernel's formula with its tiles joined, its 33rd column split off, and the reference's nibble. -/
theorem alg_kerVal_flat (X : SX.Idx → EReal) (Wq : SW.Idx → BitVec 32) (Sc Zr : SG.Idx → EReal) (Um : SU.Idx → EReal)
    (Vm : SV.Idx → EReal) (Bs : SB.Idx → EReal) (p : Fin 512) (q : Fin 11008) :
    kerVal X Wq Sc Zr Um Vm Bs p q =
      (∑ c : Fin 4096, X (ix2 p c) * (nibR Wq (qr q) (gcol (qs q) c) * Sc (ix2 (0 : Fin 1) (gcol (qs q) c))))
      + (((∑ l : Fin 32, (∑ c : Fin 4096, X (ix2 p c) * Vm (ix2 l c)) * Um (ix2 q l)) + Bs (ix1 q))
          - ∑ c : Fin 4096, X (ix2 p c) * (Zr (ix2 (0 : Fin 1) (gcol (qs q) c)) * Sc (ix2 (0 : Fin 1) (gcol (qs q) c)))) := by
  unfold kerVal kerTile corr
  rw [alg_lowrank_split,
    alg_tiles_sum (fun c => X (ix2 p c) * (nibK Wq (qr q) (gcol (qs q) c) * Sc (ix2 (0 : Fin 1) (gcol (qs q) c))))]
  simp only [alg_nibK_eq_nibR]

/-! ## Distributivity -/

theorem alg_real_identity (a n s z : Fin 4096 → ℝ) (u : Fin 32 → ℝ) (v : Fin 32 → Fin 4096 → ℝ) (b : ℝ) :
    (∑ c, a c * (n c * s c)) + (((∑ l, (∑ c, a c * v l c) * u l) + b) - ∑ c, a c * (z c * s c))
      = (∑ c, a c * ((n c - z c) * s c + ∑ l, u l * v l c)) + b := by
  have h1 : ∑ l, (∑ c, a c * v l c) * u l = ∑ c, a c * ∑ l, u l * v l c := by
    simp only [Finset.sum_mul, Finset.mul_sum]
    rw [Finset.sum_comm]
    exact Finset.sum_congr rfl fun c _ => Finset.sum_congr rfl fun l _ => by ring
  have h2 : ∑ c, a c * ((n c - z c) * s c + ∑ l, u l * v l c)
      = (∑ c, a c * (n c * s c)) - (∑ c, a c * (z c * s c)) + ∑ c, a c * ∑ l, u l * v l c := by
    rw [← Finset.sum_sub_distrib, ← Finset.sum_add_distrib]
    exact Finset.sum_congr rfl fun c _ => by ring
  rw [h1, h2]
  ring

/-- The same identity between extended reals that are all coercions of reals. -/
theorem alg_ereal_identity (a n s z : Fin 4096 → ℝ) (u : Fin 32 → ℝ) (v : Fin 32 → Fin 4096 → ℝ) (b : ℝ) :
    (∑ c, (a c : EReal) * ((n c : EReal) * (s c : EReal)))
        + (((∑ l, (∑ c, (a c : EReal) * (v l c : EReal)) * (u l : EReal)) + (b : EReal))
            - ∑ c, (a c : EReal) * ((z c : EReal) * (s c : EReal)))
      = (∑ c, (a c : EReal) * (((n c : EReal) - (z c : EReal)) * (s c : EReal) + ∑ l, (u l : EReal) * (v l c : EReal)))
        + (b : EReal) := by
  simp only [← EReal.coe_mul, ← EReal.coe_add, ← EReal.coe_sub, ← coe_sum]
  exact congrArg _ (alg_real_identity a n s z u v b)

/-! ## The theorem -/

theorem kerVal_eq_refVal (X : SX.Idx → EReal) (Wq : SW.Idx → BitVec 32) (Sc Zr : SG.Idx → EReal) (Um : SU.Idx → EReal)
    (Vm : SV.Idx → EReal) (Bs : SB.Idx → EReal)
    (hX : ∀ i, ∃ r : ℝ, X i = (r : EReal)) (hSc : ∀ i, ∃ r : ℝ, Sc i = (r : EReal)) (hZr : ∀ i, ∃ r : ℝ, Zr i = (r : EReal))
    (hUm : ∀ i, ∃ r : ℝ, Um i = (r : EReal)) (hVm : ∀ i, ∃ r : ℝ, Vm i = (r : EReal)) (hBs : ∀ i, ∃ r : ℝ, Bs i = (r : EReal))
    (p : Fin 512) (q : Fin 11008) :
    kerVal X Wq Sc Zr Um Vm Bs p q = refVal X Wq Sc Zr Um Vm Bs p q := by
  choose x hx using hX
  choose sc hsc using hSc
  choose zr hzr using hZr
  choose um hum using hUm
  choose vm hvm using hVm
  choose bs hbs using hBs
  obtain ⟨nb, hnb⟩ : ∃ nb : Fin 4096 → ℝ, ∀ c, nibR Wq (qr q) (gcol (qs q) c) = (nb c : EReal) := ⟨_, fun c => rfl⟩
  rw [alg_kerVal_flat]
  unfold refVal
  simp only [hx, hsc, hzr, hum, hvm, hbs, hnb]
  exact alg_ereal_identity (fun c => x (ix2 p c)) nb (fun c => sc (ix2 (0 : Fin 1) (gcol (qs q) c)))
    (fun c => zr (ix2 (0 : Fin 1) (gcol (qs q) c))) (fun l => um (ix2 q l)) (fun l c => vm (ix2 l c)) (bs (ix1 q))

end Cert.Bridge

end
-- ==== Proof.lean ====
/-
  A 4-bit quantised linear layer with a low-rank correction and a bias,
      out = x (dequant(W_q) + U V)^T + bias,
  against a kernel that walks the 4096 input columns in sixteen tiles of 256, accumulates x times
  (nibble times scale) per tile, and at the last tile adds the product of [x V^T | 1] with [U | bias] and
  subtracts x (zero * scale)^T, both prepared before the launch.

  The three programs' runs are generated. Written by hand: both results read at one output element (p, q) as
  a formula of the seven argument arrays — the reference's `refVal` (RefValue.lean, over the generated reading of
  its operations), the kernel's `kerVal` (KernelValue.lean: the fold over the grid points, over Payloads.lean's
  reading of the body's stored values and BlocksTile.lean's / BlocksWhole.lean's reading of its input blocks) —,
  that the precondition makes every float entry a real number (Finite.lean), and that on real entries the two
  formulas are one number (Algebra.lean: the two nibble extractions agree word by word, the tiles' sums are the
  sum over all columns, and the rest is distributivity, which is why finiteness is needed).
-/
import proofs.«426867_j79929341379025_3_alg».proof.Defs
import proofs.«426867_j79929341379025_3_alg».proof.Proof.Gen.Kernel.Frame
import proofs.«426867_j79929341379025_3_alg».proof.Proof.Gen.KernelIdeal.Value
import proofs.«426867_j79929341379025_3_alg».proof.Proof.Gen.Pre_finite_inputs
import proofs.«426867_j79929341379025_3_alg».proof.Proof.Gen.ReferenceIdeal.Run
import proofs.«426867_j79929341379025_3_alg».proof.Proof.Gen.ReferenceIdeal.Read
import proofs.«426867_j79929341379025_3_alg».proof.Proof.KernelValue
import proofs.«426867_j79929341379025_3_alg».proof.Proof.RefValue
import proofs.«426867_j79929341379025_3_alg».proof.Proof.Finite
import proofs.«426867_j79929341379025_3_alg».proof.Proof.Algebra
import Idealize.ShloMosaic.Adequacy
import Idealize.ShloMosaic.Init

noncomputable section

namespace Cert.Proof

open Idealize.ShloMosaic Idealize.SL.Sem Idealize.ShloMosaic.ValueIdx

/-- The idealized kernel terminates without a fault and leaves its arguments as they were: its value run, the
    result dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the seven arguments the two idealized programs end with the same result array:
    element by element the reference's is `refVal`, the kernel's `kerVal`, and on the finite inputs the
    precondition grants the two are equal. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v20_eq]
  funext i
  obtain ⟨p, q, rfl⟩ : ∃ (p : Fin 512) (q : Fin 11008), i = ix2 p q := ⟨i 0, i 1, eq_ix2 i⟩
  obtain ⟨e0, e1, e2, e3, e4, e5, e6⟩ := hagree c
  obtain ⟨hX, hSc, hZr, hU, hV, hB⟩ := Cert.Pre_finite_inputs.Finite.finite_of_pre _ _ _ _ _ _ _ (hpre c)
  rw [Cert.ReferenceIdeal.RefValue.ref_apply, e0, e1, e2, e3, e4, e5, e6, Cert.KernelIdeal.KernelValue.G6_apply]
  exact (Cert.Bridge.kerVal_eq_refVal _ _ _ _ _ _ _ hX hSc hZr hU hV hB p q).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
